-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x32 : Shape := ⟨2, ![128, 32]⟩
abbrev S64x1 : Shape := ⟨2, ![64, 1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S64x1 : S_.BroadcastsInDim S64x1 (![] : Fin 0 → Fin S64x1.rank)
  reducesTo_S64x1_S_d0_1 : S64x1.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .slt main_arg4 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  main_v20

def fn {F : FTy → Type} [FloatOps F] (main_arg0 : FVec F S100000x128 .f32) (main_arg1 : FVec F S128x32 .f32) (main_arg2 : FVec F S64x1 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg4 main_v14
  let main_c_5 : IVec S_ 32 := constantI S_ 32 100000#32
  fn_part1 (F := F) main_arg4 main_v13 main_v15 main_c_5
-- ==== Kernel.lean ====
abbrev S100000x128 : Shape := ⟨2, ![100000, 128]⟩
abbrev S128x32 : Shape := ⟨2, ![128, 32]⟩
abbrev S64x1 : Shape := ⟨2, ![64, 1]⟩
abbrev S1600000 : Shape := ⟨1, ![1600000]⟩
abbrev S32x1 : Shape := ⟨2, ![32, 1]⟩
abbrev S32x2 : Shape := ⟨2, ![32, 2]⟩
abbrev S100000x32 : Shape := ⟨2, ![100000, 32]⟩
abbrev S100000x2 : Shape := ⟨2, ![100000, 2]⟩
abbrev S5000x128 : Shape := ⟨2, ![5000, 128]⟩
abbrev S5000x32 : Shape := ⟨2, ![5000, 32]⟩
abbrev S5000x2 : Shape := ⟨2, ![5000, 2]⟩
abbrev S100000x1 : Shape := ⟨2, ![100000, 1]⟩
abbrev S100000 : Shape := ⟨1, ![100000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x32 : Shape := ⟨2, ![1600000, 32]⟩

abbrev nBuf : Space → Nat
  | .hbm => 94
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S64x1, .f32⟩
  | .hbm, ⟨3, _⟩ => ⟨S1600000, .i32⟩
  | .hbm, ⟨4, _⟩ => ⟨S1600000, .i32⟩
  | .hbm, ⟨5, _⟩ => ⟨S32x1, .f32⟩
  | .hbm, ⟨6, _⟩ => ⟨S32x1, .f32⟩
  | .hbm, ⟨7, _⟩ => ⟨S32x2, .f32⟩
  | .hbm, ⟨8, _⟩ => ⟨S100000x32, .f32⟩
  | .hbm, ⟨9, _⟩ => ⟨S100000x2, .f32⟩
  | .hbm, ⟨10, _⟩ => ⟨S100000x1, .f32⟩
  | .hbm, ⟨11, _⟩ => ⟨S100000, .f32⟩
  | .hbm, ⟨12, _⟩ => ⟨S100000x1, .f32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .f32⟩
  | .hbm, ⟨34, _⟩ => ⟨S_, .f32⟩
  | .hbm, ⟨35, _⟩ => ⟨S1600000, .f32⟩
  | .hbm, ⟨36, _⟩ => ⟨S1600000, .i1⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S1600000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1600000, .f32⟩
  | .hbm, ⟨45, _⟩ => ⟨S1600000, .f32⟩
  | .hbm, ⟨46, _⟩ => ⟨S_, .f32⟩
  | .hbm, ⟨47, _⟩ => ⟨S1600000, .f32⟩
  | .hbm, ⟨48, _⟩ => ⟨S1600000, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S1600000, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1, .i32⟩
  | .hbm, ⟨73, _⟩ => ⟨S_, .i32⟩
  | .hbm, ⟨74, _⟩ => ⟨S1600000x1, .i32⟩
  | .hbm, ⟨75, _⟩ => ⟨S1600000x1, .i1⟩
  | .hbm, ⟨76, _⟩ => ⟨S1x1, .i32⟩
  | .hbm, ⟨77, _⟩ => ⟨S1600000x1, .i32⟩
  | .hbm, ⟨78, _⟩ => ⟨S1600000x1, .i1⟩
  | .hbm, ⟨79, _⟩ => ⟨S1600000x1, .i1⟩
  | .hbm, ⟨80, _⟩ => ⟨S_, .i1⟩
  | .hbm, ⟨81, _⟩ => ⟨S1600000, .i1⟩
  | .hbm, ⟨82, _⟩ => ⟨S1600000x32, .f32⟩
  | .hbm, ⟨83, _⟩ => ⟨S1600000x32, .i1⟩
  | .hbm, ⟨84, _⟩ => ⟨S_, .f32⟩
  | .hbm, ⟨85, _⟩ => ⟨S1600000x32, .f32⟩
  | .hbm, ⟨86, _⟩ => ⟨S1600000x32, .f32⟩
  | .hbm, ⟨87, _⟩ => ⟨S1600000x1, .f32⟩
  | .hbm, ⟨88, _⟩ => ⟨S1600000x32, .f32⟩
  | .hbm, ⟨89, _⟩ => ⟨S1600000x32, .f32⟩
  | .hbm, ⟨90, _⟩ => ⟨S_, .f32⟩
  | .hbm, ⟨91, _⟩ => ⟨S100000x32, .f32⟩
  | .hbm, ⟨92, _⟩ => ⟨S1600000x1, .i32⟩
  | .hbm, ⟨93, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S32x2, .f32⟩
  | .local _ .vmem, ⟨4, _⟩ => ⟨S5000x32, .f32⟩
  | .local _ .vmem, ⟨5, _⟩ => ⟨S5000x32, .f32⟩
  | .local _ .vmem, ⟨6, _⟩ => ⟨S5000x2, .f32⟩
  | .local _ .vmem, ⟨7, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v23 : Ref sig .tc := ⟨.hbm, 40, rfl⟩
abbrev main_cst_3 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_8 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S64x1_S32x1_0_0 : S64x1.Slices ![0, 0] S32x1
  slices_S64x1_S32x1_32_0 : S64x1.Slices ![32, 0] S32x1
  concatenates_S32x1_S32x1_S32x2_d1 : Shape.Concatenates [S32x1, S32x1] S32x2 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S5000x128_S128x32_S5000x32_1_0_0_1_n_n_wf : DotDims.WF S5000x128 S128x32 S5000x32 [1] [0] [0] [1] [] []
  dot_S5000x32_S32x2_S5000x2_1_0_0_1_n_n_wf : DotDims.WF S5000x32 S32x2 S5000x2 [1] [0] [0] [1] [] []
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2.size a ≤ S32x2.size a
  hwx0_2 : ∀ i : grid0.Coords, EltTy.bits .f32 = 32 ∨ (Rect.block (s := S32x2) S32x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x2.size a ≤ S100000x2.size a
  hwx0_4 : ∀ i : grid0.Coords, EltTy.bits .f32 = 32 ∨ (Rect.block (s := S100000x2) S5000x2.size (cc0_transform_4 i) (hinb0_4 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S5000x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x32 : Shape := ⟨2, ![128, 32]⟩
abbrev S64x1 : Shape := ⟨2, ![64, 1]⟩
abbrev S1600000 : Shape := ⟨1, ![1600000]⟩
abbrev S100000x32 : Shape := ⟨2, ![100000, 32]⟩
abbrev S_ : Shape := ⟨0, ![]⟩
abbrev S1600000x1 : Shape := ⟨2, ![1600000, 1]⟩
abbrev S1600000x32 : Shape := ⟨2, ![1600000, 32]⟩
abbrev S1600000x64 : Shape := ⟨2, ![1600000, 64]⟩
abbrev S100000 : Shape := ⟨1, ![100000]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S64x1, .f32⟩
  | .hbm, ⟨3, _⟩ => ⟨S1600000, .i32⟩
  | .hbm, ⟨4, _⟩ => ⟨S1600000, .i32⟩
  | .hbm, ⟨5, _⟩ => ⟨S100000x32, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x32, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x32, .f32⟩
  | .hbm, ⟨24, _⟩ => ⟨S1600000x64, .f32⟩
  | .hbm, ⟨25, _⟩ => ⟨S1600000x1, .f32⟩
  | .hbm, ⟨26, _⟩ => ⟨S1600000, .f32⟩
  | .hbm, ⟨27, _⟩ => ⟨S_, .f32⟩
  | .hbm, ⟨28, _⟩ => ⟨S_, .f32⟩
  | .hbm, ⟨29, _⟩ => ⟨S1600000, .f32⟩
  | .hbm, ⟨30, _⟩ => ⟨S1600000, .i1⟩
  | .hbm, ⟨31, _⟩ => ⟨S_, .f32⟩
  | .hbm, ⟨32, _⟩ => ⟨S1600000, .f32⟩
  | .hbm, ⟨33, _⟩ => ⟨S1600000, .f32⟩
  | .hbm, ⟨34, _⟩ => ⟨S1600000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S_, .f32⟩
  | .hbm, ⟨41, _⟩ => ⟨S1600000, .f32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S100000, .f32⟩
  | .hbm, ⟨46, _⟩ => ⟨S1600000x1, .i32⟩
  | .hbm, ⟨47, _⟩ => ⟨S100000, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000, .f32⟩
  | .hbm, ⟨57, _⟩ => ⟨S1600000, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x32, .f32⟩
  | .hbm, ⟨67, _⟩ => ⟨S1600000x1, .f32⟩
  | .hbm, ⟨68, _⟩ => ⟨S1600000x32, .f32⟩
  | .hbm, ⟨69, _⟩ => ⟨S1600000x32, .f32⟩
  | .hbm, ⟨70, _⟩ => ⟨S_, .f32⟩
  | .hbm, ⟨71, _⟩ => ⟨S100000x32, .f32⟩
  | .hbm, ⟨72, _⟩ => ⟨S1600000x1, .i32⟩
  | .hbm, ⟨73, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_cst_3 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_c_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_c_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  shapeCasts_S1600000x1_S1600000 : S1600000x1.ShapeCasts S1600000
  bcast_S_S100000 : S_.BroadcastsInDim S100000 (![] : Fin 0 → Fin S100000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  dot_S1600000x64_S64x1_S1600000x1_1_0_0_1_n_n_wf : DotDims.WF S1600000x64 S64x1 S1600000x1 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000x32_S1600000x1_S1600000x32_1_0_0_1_wf : ScatterDims.WF S100000x32 S1600000x1 S1600000x32 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KData.lean ====
/-
  The proof data of the one tiled region: a grid of 20 points over the node axis, 5000 rows a point.

  Five windows: the feature rows `X` (block `t` = rows 5000·t … 5000·t + 4999), the projection `W` and the packed attention
  halves (each one whole block, the same at every point), and the two results `h` and the per-node logits (block `t` again).
  At a point the body leaves in the `h` buffer the product of its `X` block with `W`, and in the logits buffer that product
  times the packed halves; it changes no input buffer. The arrays are as the region finds them: after the three array
  operations that come before it (two slices of the attention vector and their concatenation).
-/
import proofs.«416682_j4217657885155_2_alg».proof.Proof.Gen.Kernel.Launch
import proofs.«416682_j4217657885155_2_alg».proof.Proof.Gen.Kernel.Skeleton
import proofs.«416682_j4217657885155_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The stretches of array operations that follow the region, in order: the score, leaky-relu, two constants, the clip,
    the softmax, the filling row lookup, the weighted segment sum. -/
abbrev tailOps : List (List (HloOp τ sig (Elt F))) :=
  [hostOps1, hostOps1_1, hostOps1_2, hostOps1_3, hostOps1_4, hostOps1_5, hostOps1_6]

/-- Core `c`'s buffer contents when the region is entered: after the operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer whole -/

abbrev rX : Rect S5000x128 := Rect.unit (s := S5000x128) ![0, 0] S5000x128.size inb_S5000x128_S5000x128_0_0
abbrev rW : Rect S128x32 := Rect.unit (s := S128x32) ![0, 0] S128x32.size inb_S128x32_S128x32_0_0
abbrev rKa : Rect S32x2 := Rect.unit (s := S32x2) ![0, 0] S32x2.size inb_S32x2_S32x2_0_0
abbrev rH : Rect S5000x32 := Rect.unit (s := S5000x32) ![0, 0] S5000x32.size inb_S5000x32_S5000x32_0_0
abbrev rL : Rect S5000x2 := Rect.unit (s := S5000x2) ![0, 0] S5000x2.size inb_S5000x2_S5000x2_0_0

/-! ## What the body leaves in each result buffer -/

/-- The `h` buffer after the body: the block's rows times `W`. -/
def out0_3 (x0 : Vec F S5000x128 .f32) (x1 : Vec F S128x32 .f32) : Vec F S5000x32 .f32 :=
  View.canon [⟨rH, k0_pay1 (View.ld x0 rX) (View.ld x1 rW)⟩]

/-- The logits buffer after the body: that product times the packed attention halves. -/
def out0_4 (x0 : Vec F S5000x128 .f32) (x1 : Vec F S128x32 .f32) (x2 : Vec F S32x2 .f32) : Vec F S5000x2 .f32 :=
  View.canon [⟨rL, k0_pay2 (View.ld x0 rX) (View.ld x1 rW) (View.ld x2 rKa)⟩]

/-! ## The proof data -/

/-- On core `c`: the arrays as the region finds them; after the body at point `t` each input's buffer at its block and each
    result's at what the body computes from the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t)
    | ⟨4, _⟩ => out0_4 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) := by dsimp only [dats]
theorem after0_4 (c : Dev nD) (t : Fin cfg0.N) :
    (dats m 0 c).after 4 t = out0_4 (iblk m c 0 t) (iblk m c 1 t) (iblk m c 2 t) := by dsimp only [dats]

end Cert.Kernel.Hand

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.Spec.lean ====
/-
  Graph attention over an edge list, as mathematics.

  Nodes carry feature rows `X : [N, 128]`; `h = X · W : [N, 32]` are the projected rows. An edge `e` from `src e` to
  `dst e` gets the pre-activation score `s e = ⟨h (src e) ++ h (dst e), ka⟩`, a 64-term inner product with the attention
  vector `ka`. Splitting `ka` into its two halves, the same number is `a₀ (src e) + a₁ (dst e)` with
  `a₀ n = ⟨h n, ka[0:32]⟩` and `a₁ n = ⟨h n, ka[32:64]⟩`: two per-node scalars gathered per edge instead of two rows.
  Everything after the score is one function of the score, the gathered destination rows and the source ids
  (`tail`): leaky-relu, clip to [-2, 2], exponential, a segment sum over the source ids as the softmax denominator,
  the quotient, the rows scaled by it, and a second segment sum of the scaled rows.

  Index conventions: an index word is read as a signed integer; a negative one counts from the end (`wrapIdx`); a gather
  then clamps into the array (the library's `Host.gather`), while the row lookup `takeRows` instead fills a row whose
  index is outside `[0, N)` with the not-a-number pattern.
-/
import Idealize.ShloMosaic.PureOps
import Idealize.ShloMosaic.PureOps.Ideal
import Idealize.ShloMosaic.Lib.ValueIdx
import proofs.«416682_j4217657885155_2_alg».proof.Proof.LibIndex

noncomputable section

namespace Cert.Gat

open Idealize.ShloMosaic Idealize.ShloMosaic.ValueIdx

/-! ## Shapes: N = 100000 nodes, E = 1600000 edges, 128 input features, 32 units -/

abbrev S_ : Shape := ⟨0, ![]⟩
abbrev S1 : Shape := ⟨1, ![1]⟩
abbrev S1x1 : Shape := ⟨2, ![1, 1]⟩
abbrev SN : Shape := ⟨1, ![100000]⟩
abbrev SNx1 : Shape := ⟨2, ![100000, 1]⟩
abbrev SNx2 : Shape := ⟨2, ![100000, 2]⟩
abbrev SNxU : Shape := ⟨2, ![100000, 32]⟩
abbrev SNxK : Shape := ⟨2, ![100000, 128]⟩
abbrev SKxU : Shape := ⟨2, ![128, 32]⟩
abbrev S64x1 : Shape := ⟨2, ![64, 1]⟩
abbrev S32x1 : Shape := ⟨2, ![32, 1]⟩
abbrev S32x2 : Shape := ⟨2, ![32, 2]⟩
abbrev SE : Shape := ⟨1, ![1600000]⟩
abbrev SEx1 : Shape := ⟨2, ![1600000, 1]⟩
abbrev SEx32 : Shape := ⟨2, ![1600000, 32]⟩
abbrev SEx64 : Shape := ⟨2, ![1600000, 64]⟩

/-! ## The shape relations the operations take -/

theorem hS_ : 0 < S_.numel := by decide
theorem bc_E : S_.BroadcastsInDim SE (![] : Fin 0 → Fin SE.rank) := by decide
theorem bc_N : S_.BroadcastsInDim SN (![] : Fin 0 → Fin SN.rank) := by decide
theorem bc_NU : S_.BroadcastsInDim SNxU (![] : Fin 0 → Fin SNxU.rank) := by decide
theorem bc_Ex1 : S_.BroadcastsInDim SEx1 (![] : Fin 0 → Fin SEx1.rank) := by decide
theorem bc_Ex32 : S_.BroadcastsInDim SEx32 (![] : Fin 0 → Fin SEx32.rank) := by decide
theorem bcE_Ex1 : SE.BroadcastsInDim SEx1 (![0] : Fin 1 → Fin SEx1.rank) := by decide
theorem bcE_Ex32 : SE.BroadcastsInDim SEx32 (![0] : Fin 1 → Fin SEx32.rank) := by decide
theorem bcEx1_Ex32 : SEx1.BroadcastsInDim SEx32 (![0, 1] : Fin 2 → Fin SEx32.rank) := by decide
theorem bc1_1x1 : S1.BroadcastsInDim S1x1 (![1] : Fin 1 → Fin S1x1.rank) := by decide
theorem bc1x1_Ex1 : S1x1.BroadcastsInDim SEx1 (![0, 1] : Fin 2 → Fin SEx1.rank) := by decide
theorem redEx1_E : SEx1.ReducesTo [1] SE := by decide
theorem slN_0 : SNx2.Slices ![0, 0] SNx1 := by decide
theorem slN_1 : SNx2.Slices ![0, 1] SNx1 := by decide
theorem scN : SNx1.ShapeCasts SN := by decide
theorem scE : SEx1.ShapeCasts SE := by decide
theorem slKa_0 : S64x1.Slices ![0, 0] S32x1 := by decide
theorem slKa_32 : S64x1.Slices ![32, 0] S32x1 := by decide
theorem catKa : Shape.Concatenates [S32x1, S32x1] S32x2 1 := by decide
theorem catE : Shape.Concatenates [SEx32, SEx32] SEx64 1 := by decide
theorem wfGatherVec : GatherDims.WF SN SEx1 SE [] [0] [] [0] [] 1 ![1] := by decide
theorem wfGatherRows : GatherDims.WF SNxU SEx1 SEx32 [1] [0] [] [0] [] 1 ![1, 32] := by decide
theorem wfScatVec : ScatterDims.WF SN SEx1 SE [] [0] [0] 1 := by decide
theorem wfScatRows : ScatterDims.WF SNxU SEx1 SEx32 [1] [0] [0] 1 := by decide
theorem wfDotN : DotDims.WF SNxK SKxU SNxU [1] [0] [0] [1] [] [] := by decide
theorem wfDotE : DotDims.WF SEx64 S64x1 SEx1 [1] [0] [0] [1] [] [] := by decide

/-- Element gather `x[idx]` of a length-N vector by a column of E indices. -/
abbrev gVec : GatherDims SN SEx1 SE := Cert.Gcn.vecGatherDims 100000 1600000 wfGatherVec
/-- Row gather `x[idx, :]` of an N×32 array by a column of E indices. -/
abbrev gRows : GatherDims SNxU SEx1 SEx32 := Cert.Gcn.rowGatherDims 100000 1600000 32 wfGatherRows
/-- Accumulating scatter of E scalars into a length-N vector. -/
def scVec : ScatterDims SN SEx1 SE where
  updateWindowDims := []
  insertedWindowDims := [0]
  scatterDimsToOperandDims := [0]
  indexVectorDim := 1
  wf := wfScatVec
/-- Accumulating scatter of E rows into an N×32 array. -/
def scRows : ScatterDims SNxU SEx1 SEx32 where
  updateWindowDims := [1]
  insertedWindowDims := [0]
  scatterDimsToOperandDims := [0]
  indexVectorDim := 1
  wf := wfScatRows
/-- `[N,128] · [128,32]`, contracting the 128 axis. -/
def dotN : DotDims SNxK SKxU SNxU where
  lhsContracting := [1]
  rhsContracting := [0]
  lhsNonContracting := [0]
  rhsNonContracting := [1]
  lhsBatch := []
  rhsBatch := []
  wf := wfDotN
/-- `[E,64] · [64,1]`, contracting the 64 axis. -/
def dotE : DotDims SEx64 S64x1 SEx1 where
  lhsContracting := [1]
  rhsContracting := [0]
  lhsNonContracting := [0]
  rhsNonContracting := [1]
  lhsBatch := []
  rhsBatch := []
  wf := wfDotE

variable {F : FTy → Type} [FloatOps F]

/-! ## Indices -/

/-- A negative index counts from the end: `v < 0 ? v + N : v`. -/
def wrapIdx (v : IVec SE 32) : IVec SE 32 :=
  select (cmpi .slt v (broadcastInDim SE ![] bc_E (constantI S_ 32 0#32)))
    (addi v (broadcastInDim SE ![] bc_E (constantI S_ 32 100000#32))) v

/-- The wrapped indices as the column `[E, 1]` a gather takes. -/
def colIdx (v : IVec SE 32) : IVec SEx1 32 := broadcastInDim SEx1 ![0] bcE_Ex1 (wrapIdx v)

/-! ## The score, two ways -/

/-- The attention vector's two halves side by side: column 0 is `ka[0:32]`, column 1 is `ka[32:64]`. -/
def kaPair (ka : FVec F S64x1 .f32) : FVec F S32x2 .f32 :=
  concatenate S32x2 1 [⟨S32x1, extractStridedSlice S32x1 ![0, 0] ka slKa_0⟩, ⟨S32x1, extractStridedSlice S32x1 ![32, 0] ka slKa_32⟩] catKa

/-- Column `c` of the per-node logits as a vector. -/
def logitCol0 (lg : FVec F SNx2 .f32) : FVec F SN .f32 := shapeCast SN (extractStridedSlice SNx1 ![0, 0] lg slN_0) scN
def logitCol1 (lg : FVec F SNx2 .f32) : FVec F SN .f32 := shapeCast SN (extractStridedSlice SNx1 ![0, 1] lg slN_1) scN

/-- The score from per-node logits: `a₀[src] + a₁[dst]`. -/
def scoreNodes (lg : FVec F SNx2 .f32) (src dst : IVec SE 32) : FVec F SE .f32 :=
  addf (Host.gather gVec (logitCol0 lg) (colIdx src)) (Host.gather gVec (logitCol1 lg) (colIdx dst))

/-- The score from gathered rows: `(h[src] ++ h[dst]) · ka`. -/
def scoreRows (h : FVec F SNxU .f32) (ka : FVec F S64x1 .f32) (src dst : IVec SE 32) : FVec F SE .f32 :=
  shapeCast SE (Host.dotGeneral dotE none
    (concatenate SEx64 1 [⟨SEx32, Host.gather gRows h (colIdx src)⟩, ⟨SEx32, Host.gather gRows h (colIdx dst)⟩] catE) ka) scE

/-! ## The destination rows, two ways -/

/-- The rows `h[dst]` by a clamping gather. -/
def gatherRows (h : FVec F SNxU .f32) (dst : IVec SE 32) : FVec F SEx32 .f32 := Host.gather gRows h (colIdx dst)

/-- Which edges have their (wrapped) destination inside `[0, N - 1]`. -/
def inBounds (dst : IVec SE 32) : IVec SE 1 :=
  Host.reduce IntOp.andi
    (andi (cmpi .sge (colIdx dst) (broadcastInDim SEx1 ![] bc_Ex1 (constantI S_ 32 0#32)))
      (cmpi .sle (colIdx dst) (broadcastInDim SEx1 ![0, 1] bc1x1_Ex1 (broadcastInDim S1x1 ![1] bc1_1x1 (constantI S1 32 99999#32)))))
    (constantI S_ 1 1#1) redEx1_E hS_

/-- The rows `h[dst]` with a fill: a row whose index is outside the array is the not-a-number pattern. -/
def takeRows (h : FVec F SNxU .f32) (dst : IVec SE 32) : FVec F SEx32 .f32 :=
  select (broadcastInDim SEx32 ![0] bcE_Ex32 (inBounds dst)) (Host.gather gRows h (colIdx dst))
    (broadcastInDim SEx32 ![] bc_Ex32 (constant S_ .f32 0x7FC00000#32))

/-! ## From the score to the result -/

/-- `x ≥ 0 ? x : 0.2 · x`. -/
def leakyRelu (s : FVec F SE .f32) : FVec F SE .f32 :=
  select (cmpf .oge s (broadcastInDim SE ![] bc_E (constant S_ .f32 0x00000000#32))) s
    (mulf (broadcastInDim SE ![] bc_E (constant S_ .f32 0x3E4CCCCD#32)) s)

/-- `min 2 (max (-2) x)`. -/
def clip2 (x : FVec F SE .f32) : FVec F SE .f32 :=
  minimumf (broadcastInDim SE ![] bc_E (constant S_ .f32 0x40000000#32))
    (maximumf (broadcastInDim SE ![] bc_E (constant S_ .f32 0xC0000000#32)) x)

/-- The unnormalised attention weight of each edge. -/
def weights (s : FVec F SE .f32) : FVec F SE .f32 := Host.exp (clip2 (leakyRelu s))

/-- The softmax denominator of each source node: the sum of the weights of its edges. -/
def denom (w : FVec F SE .f32) (src : IVec SE 32) : FVec F SN .f32 :=
  Host.scatterAdd scVec (broadcastInDim SN ![] bc_N (constant S_ .f32 0x00000000#32)) (broadcastInDim SEx1 ![0] bcE_Ex1 src) w

/-- The normalised attention of each edge. -/
def attention (w : FVec F SE .f32) (src : IVec SE 32) : FVec F SE .f32 :=
  Host.divf w (Host.gather gVec (denom w src) (colIdx src))

/-- Everything after the score: the attention-weighted sum of destination rows per source node. -/
def tail (hd : FVec F SEx32 .f32) (s : FVec F SE .f32) (src : IVec SE 32) : FVec F SNxU .f32 :=
  Host.scatterAdd scRows (broadcastInDim SNxU ![] bc_NU (constant S_ .f32 0x00000000#32)) (broadcastInDim SEx1 ![0] bcE_Ex1 src)
    (mulf hd (broadcastInDim SEx32 ![0, 1] bcEx1_Ex32 (broadcastInDim SEx1 ![0] bcE_Ex1 (attention (weights s) src))))

/-! ## The two arrays the tiled matrix products leave, as functions of the inputs, over the extended reals -/

/-- `h = X · W`. -/
def proj (X : FVec Ideal SNxK .f32) (W : FVec Ideal SKxU .f32) : FVec Ideal SNxU .f32 :=
  fun i => ∑ k : Fin 128, X (ix2 (i 0) k) * W (ix2 k (i 1))

/-- Per-node logits `h · [ka[0:32] | ka[32:64]]`. -/
def logits (h : FVec Ideal SNxU .f32) (kp : FVec Ideal S32x2 .f32) : FVec Ideal SNx2 .f32 :=
  fun i => ∑ u : Fin 32, h (ix2 (i 0) u) * kp (ix2 u (i 1))

end Cert.Gat

end
-- ==== Proof.KEntry.lean ====
/-
  What the region finds in the arrays it reads. The three operations before it write only the two slices of the attention
  vector and their concatenation, so the five argument arrays are as launched; and the third window's array holds the two
  halves of the attention vector side by side.
-/
import proofs.«416682_j4217657885155_2_alg».proof.Proof.KData
import proofs.«416682_j4217657885155_2_alg».proof.Proof.Spec
import Idealize.ShloMosaic.Lib.StableHlo.Run

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The packed attention halves, as the region finds them. -/
theorem V_main_v2 (c : Dev nD) :
    (V m c main_v2 : S32x2.Idx → F .f32) = Gat.kaPair (m ((c : Thread nD τ).loc main_arg2)) := by
  show StableHlo.after hostOps0 (fun b => m (c, b)) (Proc.devRef .tc main_v2) = _
  after_results
  rfl

end Cert.Kernel.Hand

end
-- ==== Proof.KFrame.lean ====
/-
  The tiled program runs to its end without a fault and leaves its five argument arrays as they were.

  At every grid point the body finds each input buffer at its block (fetched there, or fetched earlier and not moved), loads
  them, and stores the two products over the whole of each result buffer; so after the body the result buffers hold
  `out0_3` and `out0_4` of the input blocks and the input buffers are unchanged. The launch then writes the results back
  block by block. The array operations after the region write only their own result buffers, never an argument.
-/
import proofs.«416682_j4217657885155_2_alg».proof.Proof.KData
import proofs.«416682_j4217657885155_2_alg».proof.Proof.KEntry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The array operations around the region -/

/-- No array operation of the program allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program is: the three operations before the region, the region, then the seven stretches after it. So running
    it from the launch contents reduces to running the region, continued by those stretches, from the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every buffer an operation after the region touches is an unscoped reference of the core: an array of the region or a
    buffer the region passes by. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Each of the 84 operations after the region writes one buffer, its own result; that result is never `b` when `b` is
    none of those 84 results. Decided result by result. -/
local macro "tail_writes_apart" : tactic => `(tactic|
  (simp only [tailOps, hostOps1, hostOps1_1, hostOps1_2, hostOps1_3, hostOps1_4, hostOps1_5, hostOps1_6,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

theorem tail_apart_arg0 : (List.flatten (tailOps (F := F))).Forall fun op => Proc.devRef (τ := τ) .tc main_arg0 ∉ op.writes := by
  tail_writes_apart

theorem tail_apart_arg1 : (List.flatten (tailOps (F := F))).Forall fun op => Proc.devRef (τ := τ) .tc main_arg1 ∉ op.writes := by
  tail_writes_apart
theorem tail_apart_arg2 : (List.flatten (tailOps (F := F))).Forall fun op => Proc.devRef (τ := τ) .tc main_arg2 ∉ op.writes := by
  tail_writes_apart
theorem tail_apart_arg3 : (List.flatten (tailOps (F := F))).Forall fun op => Proc.devRef (τ := τ) .tc main_arg3 ∉ op.writes := by
  tail_writes_apart
theorem tail_apart_arg4 : (List.flatten (tailOps (F := F))).Forall fun op => Proc.devRef (τ := τ) .tc main_arg4 ∉ op.writes := by
  tail_writes_apart
theorem tail_apart_v2 : (List.flatten (tailOps (F := F))).Forall fun op => Proc.devRef (τ := τ) .tc main_v2 ∉ op.writes := by
  tail_writes_apart
theorem tail_apart_v3_0 : (List.flatten (tailOps (F := F))).Forall fun op => Proc.devRef (τ := τ) .tc main_v3_0 ∉ op.writes := by
  tail_writes_apart
theorem tail_apart_v3_1 : (List.flatten (tailOps (F := F))).Forall fun op => Proc.devRef (τ := τ) .tc main_v3_1 ∉ op.writes := by
  tail_writes_apart

/-- From the flattened form to the stretch-by-stretch form. -/
theorem tail_keeps_of {b : Ref sig .tc}
    (h : (List.flatten (tailOps (F := F))).Forall fun op => Proc.devRef (τ := τ) .tc b ∉ op.writes) :
    ∀ ops ∈ (tailOps : List (List (HloOp τ sig (Elt F)))), ∀ op ∈ ops, Proc.devRef (τ := τ) .tc b ∉ op.writes :=
  fun ops hops op hop => List.forall_iff_forall_mem.mp h op (List.mem_flatten.mpr ⟨ops, hops, hop⟩)

/-- No operation after the region writes an array of the region: the five arrays are `X`, `W`, the packed halves and the
    two results, and none of them is the result of a later operation. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps_of tail_apart_arg0 ops hops op hop
  · exact tail_keeps_of tail_apart_arg1 ops hops op hop
  · exact tail_keeps_of tail_apart_v2 ops hops op hop
  · exact tail_keeps_of tail_apart_v3_0 ops hops op hop
  · exact tail_keeps_of tail_apart_v3_1 ops hops op hop

/-- The attention vector, the two index vectors: no window stages them and nothing after the region writes them, so at the
    end they are as launched. -/
theorem W_main_arg2 (c : Dev nD) :
    Pipeline.afterTail₀ cfgs (dats m) 0 (V0 m) tailOps c main_arg2 = m ((c : Thread nD τ).loc main_arg2) := by
  unfold Pipeline.afterTail₀
  rw [StableHlo.after_of_forall_not_mem (b := Proc.devRef .tc main_arg2) _ _ (List.forall_iff_forall_mem.mp tail_apart_arg2),
    Pipeline.withArrays_of_ne _ c (V0 m c) _ main_arg2 (by exact (by decide : ∀ w, Pipeline.arrRef spec0 w ≠ main_arg2))]
  exact V_main_arg2 m c
theorem W_main_arg3 (c : Dev nD) :
    Pipeline.afterTail₀ cfgs (dats m) 0 (V0 m) tailOps c main_arg3 = m ((c : Thread nD τ).loc main_arg3) := by
  unfold Pipeline.afterTail₀
  rw [StableHlo.after_of_forall_not_mem (b := Proc.devRef .tc main_arg3) _ _ (List.forall_iff_forall_mem.mp tail_apart_arg3),
    Pipeline.withArrays_of_ne _ c (V0 m c) _ main_arg3 (by exact (by decide : ∀ w, Pipeline.arrRef spec0 w ≠ main_arg3))]
  exact V_main_arg3 m c
theorem W_main_arg4 (c : Dev nD) :
    Pipeline.afterTail₀ cfgs (dats m) 0 (V0 m) tailOps c main_arg4 = m ((c : Thread nD τ).loc main_arg4) := by
  unfold Pipeline.afterTail₀
  rw [StableHlo.after_of_forall_not_mem (b := Proc.devRef .tc main_arg4) _ _ (List.forall_iff_forall_mem.mp tail_apart_arg4),
    Pipeline.withArrays_of_ne _ c (V0 m c) _ main_arg4 (by exact (by decide : ∀ w, Pipeline.arrRef spec0 w ≠ main_arg4))]
  exact V_main_arg4 m c

/-! ## What the body finds in the input buffers -/

/-- The `X` buffer holds block `t` at point `t`: it is fetched at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- The `W` buffer holds the one block of `W` at every point: fetched at the first, and the body never changes it. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Likewise the buffer of the packed halves. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body's triple -/

/-- One store over the whole buffer covers it. -/
theorem cover0_3 (p0 : Vec F S5000x32 .f32) (y : S5000x32.Idx) :
    ∃ pc ∈ ([⟨rH, p0⟩] : List (View.Piece (Elt F) S5000x32 .f32)), y ∈ pc.1.set :=
  View.cover_of_tiled [⟨rH, p0⟩] S5000x32.size (by rfl) y
theorem cover0_4 (p0 : Vec F S5000x2 .f32) (y : S5000x2.Idx) :
    ∃ pc ∈ ([⟨rL, p0⟩] : List (View.Piece (Elt F) S5000x2 .f32)), y ∈ pc.1.set :=
  View.cover_of_tiled [⟨rL, p0⟩] S5000x2.size (by rfl) y

set_option maxHeartbeats 1000000 in
/-- The body on whole buffers, the three inputs' reading `x0`, `x1`, `x2` and the two results' holding anything, runs to
    its end leaving the inputs as they were and the results at `out0_3` and `out0_4` of the inputs: the loads of the result
    buffers read whatever is there and the value is dropped; each store covers its buffer. -/
theorem sound_kernel (c : Dev nD) (E : Set ℕ) (i : grid0.Coords)
    (arg1 : Memref sig .tc .vmem S5000x128 .f32) (harg1 : arg1.IsWhole)
    (arg2 : Memref sig .tc .vmem S128x32 .f32) (harg2 : arg2.IsWhole)
    (arg3 : Memref sig .tc .vmem S32x2 .f32) (harg3 : arg3.IsWhole)
    (arg4 : Memref sig .tc .vmem S5000x32 .f32) (harg4 : arg4.IsWhole)
    (arg5 : Memref sig .tc .vmem S5000x2 .f32) (harg5 : arg5.IsWhole)
    (x0 : Vec F S5000x128 .f32) (x1 : Vec F S128x32 .f32) (x2 : Vec F S32x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1)
            ∗ owns (c : Thread nD τ) arg5 fullShare (out0_4 x0 x1 x2)) -∗ K ⟨⟩))
      ⊢ wp frame (wpE (defs₀ (F := F)) Variants.none c none) E
          (cc0__fused_h_kernel i arg1 harg1 arg2 harg2 arg3 harg3 arg4 harg4 arg5 harg5) K := by
  simp only [cc0__fused_h_kernel_eq_skeleton]; unfold cc0__fused_h_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic point -/

/-- What the body is called with at point `t`, window by window: the invariant, the core's debt, each current buffer at
    what the launch has put or left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, the result buffers hold something, so the triple above
    applies; the invariant and the debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which unfolds plain
-- definitions in the type of an unknown
set_option backward.isDefEq.respectTransparency.types false in
/-- Every weakly fair execution terminates, and every final state has each array of the region at what the write-backs
    leave in it and every other buffer as the operations after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- In any such final state the five argument arrays are as launched. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  -- `X` and `W` are staged inputs: never written back, so they end as the region found them, which is as launched;
  -- the other three are staged by no window and written by no operation
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c)⟩

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.Kernel.Hand

end
-- ==== Proof.KIData.lean ====
/-
  The proof data of the one tiled region: a grid of 20 points over the node axis, 5000 rows a point.

  Five windows: the feature rows `X` (block `t` = rows 5000·t … 5000·t + 4999), the projection `W` and the packed attention
  halves (each one whole block, the same at every point), and the two results `h` and the per-node logits (block `t` again).
  At a point the body leaves in the `h` buffer the product of its `X` block with `W`, and in the logits buffer that product
  times the packed halves; it changes no input buffer. The arrays are as the region finds them: after the three array
  operations that come before it (two slices of the attention vector and their concatenation).
-/
import proofs.«416682_j4217657885155_2_alg».proof.Proof.Gen.KernelIdeal.Launch
import proofs.«416682_j4217657885155_2_alg».proof.Proof.Gen.KernelIdeal.Skeleton
import proofs.«416682_j4217657885155_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The stretches of array operations that follow the region, in order: the score, leaky-relu, two constants, the clip,
    the softmax, the filling row lookup, the weighted segment sum. -/
abbrev tailOps : List (List (HloOp τ sig (Elt F))) :=
  [hostOps1, hostOps1_1, hostOps1_2, hostOps1_3, hostOps1_4, hostOps1_5, hostOps1_6]

/-- Core `c`'s buffer contents when the region is entered: after the operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer whole -/

abbrev rX : Rect S5000x128 := Rect.unit (s := S5000x128) ![0, 0] S5000x128.size inb_S5000x128_S5000x128_0_0
abbrev rW : Rect S128x32 := Rect.unit (s := S128x32) ![0, 0] S128x32.size inb_S128x32_S128x32_0_0
abbrev rKa : Rect S32x2 := Rect.unit (s := S32x2) ![0, 0] S32x2.size inb_S32x2_S32x2_0_0
abbrev rH : Rect S5000x32 := Rect.unit (s := S5000x32) ![0, 0] S5000x32.size inb_S5000x32_S5000x32_0_0
abbrev rL : Rect S5000x2 := Rect.unit (s := S5000x2) ![0, 0] S5000x2.size inb_S5000x2_S5000x2_0_0

/-! ## What the body leaves in each result buffer -/

/-- The `h` buffer after the body: the block's rows times `W`. -/
def out0_3 (x0 : Vec F S5000x128 .f32) (x1 : Vec F S128x32 .f32) : Vec F S5000x32 .f32 :=
  View.canon [⟨rH, k0_pay1 (View.ld x0 rX) (View.ld x1 rW)⟩]

/-- The logits buffer after the body: that product times the packed attention halves. -/
def out0_4 (x0 : Vec F S5000x128 .f32) (x1 : Vec F S128x32 .f32) (x2 : Vec F S32x2 .f32) : Vec F S5000x2 .f32 :=
  View.canon [⟨rL, k0_pay2 (View.ld x0 rX) (View.ld x1 rW) (View.ld x2 rKa)⟩]

/-! ## The proof data -/

/-- On core `c`: the arrays as the region finds them; after the body at point `t` each input's buffer at its block and each
    result's at what the body computes from the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t)
    | ⟨4, _⟩ => out0_4 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) := by dsimp only [dats]
theorem after0_4 (c : Dev nD) (t : Fin cfg0.N) :
    (dats m 0 c).after 4 t = out0_4 (iblk m c 0 t) (iblk m c 1 t) (iblk m c 2 t) := by dsimp only [dats]

end Cert.KernelIdeal.Hand

end
-- ==== Proof.KIEntry.lean ====
/-
  What the region finds in the arrays it reads. The three operations before it write only the two slices of the attention
  vector and their concatenation, so the five argument arrays are as launched; and the third window's array holds the two
  halves of the attention vector side by side.
-/
import proofs.«416682_j4217657885155_2_alg».proof.Proof.KIData
import proofs.«416682_j4217657885155_2_alg».proof.Proof.Spec
import Idealize.ShloMosaic.Lib.StableHlo.Run

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The packed attention halves, as the region finds them. -/
theorem V_main_v2 (c : Dev nD) :
    (V m c main_v2 : S32x2.Idx → F .f32) = Gat.kaPair (m ((c : Thread nD τ).loc main_arg2)) := by
  show StableHlo.after hostOps0 (fun b => m (c, b)) (Proc.devRef .tc main_v2) = _
  after_results
  rfl

end Cert.KernelIdeal.Hand

end
-- ==== Proof.KIFrame.lean ====
/-
  The tiled program runs to its end without a fault and leaves its five argument arrays as they were.

  At every grid point the body finds each input buffer at its block (fetched there, or fetched earlier and not moved), loads
  them, and stores the two products over the whole of each result buffer; so after the body the result buffers hold
  `out0_3` and `out0_4` of the input blocks and the input buffers are unchanged. The launch then writes the results back
  block by block. The array operations after the region write only their own result buffers, never an argument.
-/
import proofs.«416682_j4217657885155_2_alg».proof.Proof.KIData
import proofs.«416682_j4217657885155_2_alg».proof.Proof.KIEntry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The array operations around the region -/

/-- No array operation of the program allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program is: the three operations before the region, the region, then the seven stretches after it. So running
    it from the launch contents reduces to running the region, continued by those stretches, from the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every buffer an operation after the region touches is an unscoped reference of the core: an array of the region or a
    buffer the region passes by. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Each of the 84 operations after the region writes one buffer, its own result; that result is never `b` when `b` is
    none of those 84 results. Decided result by result. -/
local macro "tail_writes_apart" : tactic => `(tactic|
  (simp only [tailOps, hostOps1, hostOps1_1, hostOps1_2, hostOps1_3, hostOps1_4, hostOps1_5, hostOps1_6,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

theorem tail_apart_arg0 : (List.flatten (tailOps (F := F))).Forall fun op => Proc.devRef (τ := τ) .tc main_arg0 ∉ op.writes := by
  tail_writes_apart

theorem tail_apart_arg1 : (List.flatten (tailOps (F := F))).Forall fun op => Proc.devRef (τ := τ) .tc main_arg1 ∉ op.writes := by
  tail_writes_apart
theorem tail_apart_arg2 : (List.flatten (tailOps (F := F))).Forall fun op => Proc.devRef (τ := τ) .tc main_arg2 ∉ op.writes := by
  tail_writes_apart
theorem tail_apart_arg3 : (List.flatten (tailOps (F := F))).Forall fun op => Proc.devRef (τ := τ) .tc main_arg3 ∉ op.writes := by
  tail_writes_apart
theorem tail_apart_arg4 : (List.flatten (tailOps (F := F))).Forall fun op => Proc.devRef (τ := τ) .tc main_arg4 ∉ op.writes := by
  tail_writes_apart
theorem tail_apart_v2 : (List.flatten (tailOps (F := F))).Forall fun op => Proc.devRef (τ := τ) .tc main_v2 ∉ op.writes := by
  tail_writes_apart
theorem tail_apart_v3_0 : (List.flatten (tailOps (F := F))).Forall fun op => Proc.devRef (τ := τ) .tc main_v3_0 ∉ op.writes := by
  tail_writes_apart
theorem tail_apart_v3_1 : (List.flatten (tailOps (F := F))).Forall fun op => Proc.devRef (τ := τ) .tc main_v3_1 ∉ op.writes := by
  tail_writes_apart

/-- From the flattened form to the stretch-by-stretch form. -/
theorem tail_keeps_of {b : Ref sig .tc}
    (h : (List.flatten (tailOps (F := F))).Forall fun op => Proc.devRef (τ := τ) .tc b ∉ op.writes) :
    ∀ ops ∈ (tailOps : List (List (HloOp τ sig (Elt F)))), ∀ op ∈ ops, Proc.devRef (τ := τ) .tc b ∉ op.writes :=
  fun ops hops op hop => List.forall_iff_forall_mem.mp h op (List.mem_flatten.mpr ⟨ops, hops, hop⟩)

/-- No operation after the region writes an array of the region: the five arrays are `X`, `W`, the packed halves and the
    two results, and none of them is the result of a later operation. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps_of tail_apart_arg0 ops hops op hop
  · exact tail_keeps_of tail_apart_arg1 ops hops op hop
  · exact tail_keeps_of tail_apart_v2 ops hops op hop
  · exact tail_keeps_of tail_apart_v3_0 ops hops op hop
  · exact tail_keeps_of tail_apart_v3_1 ops hops op hop

/-- The attention vector, the two index vectors: no window stages them and nothing after the region writes them, so at the
    end they are as launched. -/
theorem W_main_arg2 (c : Dev nD) :
    Pipeline.afterTail₀ cfgs (dats m) 0 (V0 m) tailOps c main_arg2 = m ((c : Thread nD τ).loc main_arg2) := by
  unfold Pipeline.afterTail₀
  rw [StableHlo.after_of_forall_not_mem (b := Proc.devRef .tc main_arg2) _ _ (List.forall_iff_forall_mem.mp tail_apart_arg2),
    Pipeline.withArrays_of_ne _ c (V0 m c) _ main_arg2 (by exact (by decide : ∀ w, Pipeline.arrRef spec0 w ≠ main_arg2))]
  exact V_main_arg2 m c
theorem W_main_arg3 (c : Dev nD) :
    Pipeline.afterTail₀ cfgs (dats m) 0 (V0 m) tailOps c main_arg3 = m ((c : Thread nD τ).loc main_arg3) := by
  unfold Pipeline.afterTail₀
  rw [StableHlo.after_of_forall_not_mem (b := Proc.devRef .tc main_arg3) _ _ (List.forall_iff_forall_mem.mp tail_apart_arg3),
    Pipeline.withArrays_of_ne _ c (V0 m c) _ main_arg3 (by exact (by decide : ∀ w, Pipeline.arrRef spec0 w ≠ main_arg3))]
  exact V_main_arg3 m c
theorem W_main_arg4 (c : Dev nD) :
    Pipeline.afterTail₀ cfgs (dats m) 0 (V0 m) tailOps c main_arg4 = m ((c : Thread nD τ).loc main_arg4) := by
  unfold Pipeline.afterTail₀
  rw [StableHlo.after_of_forall_not_mem (b := Proc.devRef .tc main_arg4) _ _ (List.forall_iff_forall_mem.mp tail_apart_arg4),
    Pipeline.withArrays_of_ne _ c (V0 m c) _ main_arg4 (by exact (by decide : ∀ w, Pipeline.arrRef spec0 w ≠ main_arg4))]
  exact V_main_arg4 m c

/-! ## What the body finds in the input buffers -/

/-- The `X` buffer holds block `t` at point `t`: it is fetched at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- The `W` buffer holds the one block of `W` at every point: fetched at the first, and the body never changes it. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Likewise the buffer of the packed halves. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body's triple -/

/-- One store over the whole buffer covers it. -/
theorem cover0_3 (p0 : Vec F S5000x32 .f32) (y : S5000x32.Idx) :
    ∃ pc ∈ ([⟨rH, p0⟩] : List (View.Piece (Elt F) S5000x32 .f32)), y ∈ pc.1.set :=
  View.cover_of_tiled [⟨rH, p0⟩] S5000x32.size (by rfl) y
theorem cover0_4 (p0 : Vec F S5000x2 .f32) (y : S5000x2.Idx) :
    ∃ pc ∈ ([⟨rL, p0⟩] : List (View.Piece (Elt F) S5000x2 .f32)), y ∈ pc.1.set :=
  View.cover_of_tiled [⟨rL, p0⟩] S5000x2.size (by rfl) y

set_option maxHeartbeats 1000000 in
/-- The body on whole buffers, the three inputs' reading `x0`, `x1`, `x2` and the two results' holding anything, runs to
    its end leaving the inputs as they were and the results at `out0_3` and `out0_4` of the inputs: the loads of the result
    buffers read whatever is there and the value is dropped; each store covers its buffer. -/
theorem sound_kernel (c : Dev nD) (E : Set ℕ) (i : grid0.Coords)
    (arg1 : Memref sig .tc .vmem S5000x128 .f32) (harg1 : arg1.IsWhole)
    (arg2 : Memref sig .tc .vmem S128x32 .f32) (harg2 : arg2.IsWhole)
    (arg3 : Memref sig .tc .vmem S32x2 .f32) (harg3 : arg3.IsWhole)
    (arg4 : Memref sig .tc .vmem S5000x32 .f32) (harg4 : arg4.IsWhole)
    (arg5 : Memref sig .tc .vmem S5000x2 .f32) (harg5 : arg5.IsWhole)
    (x0 : Vec F S5000x128 .f32) (x1 : Vec F S128x32 .f32) (x2 : Vec F S32x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1)
            ∗ owns (c : Thread nD τ) arg5 fullShare (out0_4 x0 x1 x2)) -∗ K ⟨⟩))
      ⊢ wp frame (wpE (defs₀ (F := F)) Variants.none c none) E
          (cc0__fused_h_kernel i arg1 harg1 arg2 harg2 arg3 harg3 arg4 harg4 arg5 harg5) K := by
  simp only [cc0__fused_h_kernel_eq_skeleton]; unfold cc0__fused_h_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic point -/

/-- What the body is called with at point `t`, window by window: the invariant, the core's debt, each current buffer at
    what the launch has put or left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, the result buffers hold something, so the triple above
    applies; the invariant and the debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which unfolds plain
-- definitions in the type of an unknown
set_option backward.isDefEq.respectTransparency.types false in
/-- Every weakly fair execution terminates, and every final state has each array of the region at what the write-backs
    leave in it and every other buffer as the operations after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- In any such final state the five argument arrays are as launched. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  -- `X` and `W` are staged inputs: never written back, so they end as the region found them, which is as launched;
  -- the other three are staged by no window and written by no operation
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c)⟩

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.KernelIdeal.Hand

end
-- ==== Proof.KIValue.lean ====
/-
  The two result arrays of the tiled region, over the extended reals, as whole-array functions of the inputs.

  Block `t` of `h` is the product of rows 5000·t … 5000·t + 4999 of `X` with `W`: row `r` of the array lies in block `r / 5000`,
  and its entry `(r, u)` is the sum over `k` of `X (r, k) · W (k, u)`, whatever the block. The same for the logits with the
  packed attention halves in place of `W` and `h` in place of `X`. The 20 blocks tile the node axis, so each array is
  one function of its index.
-/
import proofs.«416682_j4217657885155_2_alg».proof.Proof.KIData
import proofs.«416682_j4217657885155_2_alg».proof.Proof.KIEntry
import proofs.«416682_j4217657885155_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! The auxiliary facts live in a namespace of their own; the two results at the end do not. -/
namespace Blocks

/-! ## The two matrix products at an index

A product's entry `(p, q)` reads the left operand along row `p` and the right one along column `q`; the contracted
coordinate is the one both share. -/

theorem lhs_h_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide),
    dif_pos (show (0 : Fin S5000x128.rank) ∈ dot_S5000x128_S128x32_S5000x32_1_0_0_1_n_n.lhsNonContracting by decide)]
  rfl

theorem lhs_h_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q

theorem rhs_h_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q

theorem rhs_h_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide),
    dif_pos (show (1 : Fin S128x32.rank) ∈ dot_S5000x128_S128x32_S5000x32_1_0_0_1_n_n.rhsNonContracting by decide)]
  rfl

/-- Entry `(p, q)` of the block product: the sum over the 128 features of row `p` of the rows times column `q` of the
    projection. Narrowing to the short format changes nothing over the extended reals. -/
theorem pay1_apply (x : FVec Ideal S5000x128 .f32) (w : FVec Ideal S128x32 .f32) (p : Fin 5000) (q : Fin 32) :
    k0_pay1 (F := Ideal) x w (ix2 p q) = ∑ k : Fin 128, x (ix2 p k) * w (ix2 k q) := by
  unfold k0_pay1
  show FloatOps.matmul dot_S5000x128_S128x32_S5000x32_1_0_0_1_n_n none x w (constant S5000x32 .f32 0x00000000#32) (ix2 p q) = _
  rw [Ideal.matmul_constant_zero_apply,
    ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p q)
      ((contrEquiv1 dot_S5000x128_S128x32_S5000x32_1_0_0_1_n_n 128 rfl rfl).symm k) = ix2 p k := funext fun a => Fin.ext (by
    match a with
    | ⟨0, _⟩ => exact lhs_h_0 _ _
    | ⟨1, _⟩ => exact (lhs_h_1 _ _).trans hk)
  have er : dot_S5000x128_S128x32_S5000x32_1_0_0_1_n_n.rhsIdx (ix2 p q)
      ((contrEquiv1 dot_S5000x128_S128x32_S5000x32_1_0_0_1_n_n 128 rfl rfl).symm k) = ix2 k q := funext fun a => Fin.ext (by
    match a with
    | ⟨0, _⟩ => exact (rhs_h_0 _ _).trans hk
    | ⟨1, _⟩ => exact rhs_h_1 _ _)
  rw [el, er]

theorem lhs_l_0 (i : S5000x2.Idx) (q : dot_S5000x32_S32x2_S5000x2_1_0_0_1_n_n.contr.Idx) :
    (dot_S5000x32_S32x2_S5000x2_1_0_0_1_n_n.lhsIdx i q 0).val = (i 0).val := by
  unfold DotDims.lhsIdx
  rw [dif_neg (show ¬(0 : Fin S5000x32.rank) ∈ dot_S5000x32_S32x2_S5000x2_1_0_0_1_n_n.lhsBatch by decide),
    dif_pos (show (0 : Fin S5000x32.rank) ∈ dot_S5000x32_S32x2_S5000x2_1_0_0_1_n_n.lhsNonContracting by decide)]
  rfl

theorem lhs_l_1 (i : S5000x2.Idx) (q : dot_S5000x32_S32x2_S5000x2_1_0_0_1_n_n.contr.Idx) :
    (dot_S5000x32_S32x2_S5000x2_1_0_0_1_n_n.lhsIdx i q 1).val = (q ⟨0, by decide⟩).val :=
  dot_S5000x32_S32x2_S5000x2_1_0_0_1_n_n.lhsIdx_val_of_single rfl i q

theorem rhs_l_0 (i : S5000x2.Idx) (q : dot_S5000x32_S32x2_S5000x2_1_0_0_1_n_n.contr.Idx) :
    (dot_S5000x32_S32x2_S5000x2_1_0_0_1_n_n.rhsIdx i q 0).val = (q ⟨0, by decide⟩).val :=
  dot_S5000x32_S32x2_S5000x2_1_0_0_1_n_n.rhsIdx_val_of_single rfl i q

theorem rhs_l_1 (i : S5000x2.Idx) (q : dot_S5000x32_S32x2_S5000x2_1_0_0_1_n_n.contr.Idx) :
    (dot_S5000x32_S32x2_S5000x2_1_0_0_1_n_n.rhsIdx i q 1).val = (i 1).val := by
  unfold DotDims.rhsIdx
  rw [dif_neg (show ¬(1 : Fin S32x2.rank) ∈ dot_S5000x32_S32x2_S5000x2_1_0_0_1_n_n.rhsBatch by decide),
    dif_pos (show (1 : Fin S32x2.rank) ∈ dot_S5000x32_S32x2_S5000x2_1_0_0_1_n_n.rhsNonContracting by decide)]
  rfl

/-- Entry `(p, c)` of the second block product: row `p` of the first product against column `c` of the packed halves. -/
theorem pay2_apply (x : FVec Ideal S5000x128 .f32) (w : FVec Ideal S128x32 .f32) (kp : FVec Ideal S32x2 .f32)
    (p : Fin 5000) (c : Fin 2) :
    k0_pay2 (F := Ideal) x w kp (ix2 p c) = ∑ u : Fin 32, (∑ k : Fin 128, x (ix2 p k) * w (ix2 k u)) * kp (ix2 u c) := by
  unfold k0_pay2
  show FloatOps.matmul dot_S5000x32_S32x2_S5000x2_1_0_0_1_n_n none (k0_pay1 (F := Ideal) x w)
    (shapeCast S32x2 kp shapeCasts_S32x2_S32x2) (constant S5000x2 .f32 0x00000000#32) (ix2 p c) = _
  rw [shapeCast_self, Ideal.matmul_constant_zero_apply,
    ← Equiv.sum_comp (contrEquiv1 dot_S5000x32_S32x2_S5000x2_1_0_0_1_n_n 32 rfl rfl).symm]
  refine Finset.sum_congr rfl fun u _ => ?_
  have hu := contrEquiv1_symm_val dot_S5000x32_S32x2_S5000x2_1_0_0_1_n_n 32 rfl rfl u
  have el : dot_S5000x32_S32x2_S5000x2_1_0_0_1_n_n.lhsIdx (ix2 p c)
      ((contrEquiv1 dot_S5000x32_S32x2_S5000x2_1_0_0_1_n_n 32 rfl rfl).symm u) = ix2 p u := funext fun a => Fin.ext (by
    match a with
    | ⟨0, _⟩ => exact lhs_l_0 _ _
    | ⟨1, _⟩ => exact (lhs_l_1 _ _).trans hu)
  have er : dot_S5000x32_S32x2_S5000x2_1_0_0_1_n_n.rhsIdx (ix2 p c)
      ((contrEquiv1 dot_S5000x32_S32x2_S5000x2_1_0_0_1_n_n 32 rfl rfl).symm u) = ix2 u c := funext fun a => Fin.ext (by
    match a with
    | ⟨0, _⟩ => exact (rhs_l_0 _ _).trans hu
    | ⟨1, _⟩ => exact rhs_l_1 _ _)
  rw [el, er, pay1_apply]

/-- The two whole-array functions at an index given by its coordinates. -/
theorem proj_apply (X : FVec Ideal Gat.SNxK .f32) (W : FVec Ideal Gat.SKxU .f32) (r : Fin 100000) (u : Fin 32) :
    Gat.proj X W (ix2 r u) = ∑ k : Fin 128, X (ix2 r k) * W (ix2 k u) := rfl

theorem logits_apply (h : FVec Ideal Gat.SNxU .f32) (kp : FVec Ideal Gat.S32x2 .f32) (r : Fin 100000) (c : Fin 2) :
    Gat.logits h kp (ix2 r c) = ∑ u : Fin 32, h (ix2 r u) * kp (ix2 u c) := rfl

variable (m : (ℓ : Loc nD τ sig) → Buf (Elt Ideal) ℓ)

theorem hz : (![0, 0] : Fin 2 → Nat) = fun _ => 0 := funext fun a => by fin_cases a <;> rfl

/-! ## The arrays and the blocks of a point, at their literal types -/

/-- The feature rows, the projection and the packed halves as the region finds them. -/
abbrev xarr (c : Dev nD) : FVec Ideal Gat.SNxK .f32 := V m c main_arg0
abbrev warr (c : Dev nD) : FVec Ideal Gat.SKxU .f32 := V m c main_arg1
abbrev karr (c : Dev nD) : FVec Ideal Gat.S32x2 .f32 := V m c main_v2
/-- The blocks of the three inputs at point `t`. -/
abbrev xblk (c : Dev nD) (t : Fin cfg0.N) : FVec Ideal S5000x128 .f32 := iblk m c 0 t
abbrev wblk (c : Dev nD) (t : Fin cfg0.N) : FVec Ideal S128x32 .f32 := iblk m c 1 t
abbrev kblk (c : Dev nD) (t : Fin cfg0.N) : FVec Ideal S32x2 .f32 := iblk m c 2 t

/-- The index maps over the 20 points: the rows and the two results move with the point along the node axis, the
    projection and the packed halves stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `y` of the rows' block at point `t` is row `5000·t + y` of the array. -/
theorem xblk_apply (c : Dev nD) (t : Fin cfg0.N) (y : S5000x128.Idx) (i : S100000x128.Idx)
    (h0 : (i 0).val = t.val * 5000 + (y 0).val) (h1 : (i 1).val = (y 1).val) :
    xblk m c t y = xarr m c i := by
  obtain ⟨e0, e1, -⟩ := idx_facts t
  show V m c main_arg0 (((cfg0.win 0).blk t).view.emb y) = V m c main_arg0 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The projection's block is the whole array at every point. -/
theorem wblk_eq (c : Dev nD) (t : Fin cfg0.N) : wblk m c t = warr m c := by
  obtain ⟨-, -, e2, e3, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- So is the packed halves'. -/
theorem kblk_eq (c : Dev nD) (t : Fin cfg0.N) : kblk m c t = karr m c := by
  obtain ⟨-, -, -, -, e4, e5, -⟩ := idx_facts t
  funext y
  show V m c main_v2 (((cfg0.win 2).blk t).view.emb y) = V m c main_v2 y
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 2 + 1 * (y 1).val = (y 1).val; omega

/-! ## A block of a product is the product's rows -/

/-- If `xb` is rows `5000·b …` of `X` and `wb` is `W`, entry `j` of the block product is entry `(5000·b + j₀, j₁)` of `X · W`. -/
theorem pay1_rows (xb : FVec Ideal S5000x128 .f32) (wb : FVec Ideal S128x32 .f32)
    (X : FVec Ideal Gat.SNxK .f32) (W : FVec Ideal Gat.SKxU .f32) (b : ℕ)
    (hx : ∀ (y : S5000x128.Idx) (i : S100000x128.Idx), (i 0).val = b * 5000 + (y 0).val → (i 1).val = (y 1).val → xb y = X i)
    (hw : wb = W)
    (j : S5000x32.Idx) (i : S100000x32.Idx) (h0 : (i 0).val = b * 5000 + (j 0).val) (h1 : (i 1).val = (j 1).val) :
    k0_pay1 (F := Ideal) xb wb j = Gat.proj X W i := by
  obtain ⟨p, q, rfl⟩ : ∃ (p : Fin 5000) (q : Fin 32), j = ix2 p q := ⟨j 0, j 1, eq_ix2 j⟩
  obtain ⟨r, u, rfl⟩ : ∃ (r : Fin 100000) (u : Fin 32), i = ix2 r u := ⟨i 0, i 1, eq_ix2 i⟩
  obtain rfl : u = q := Fin.ext h1
  rw [pay1_apply, proj_apply, hw]
  refine Finset.sum_congr rfl fun k _ => ?_
  rw [hx (ix2 p k) (ix2 r k) h0 rfl]

/-- The same for the logits: entry `j` of the second block product is entry `(5000·b + j₀, j₁)` of `(X · W) · KP`. -/
theorem pay2_rows (xb : FVec Ideal S5000x128 .f32) (wb : FVec Ideal S128x32 .f32) (kb : FVec Ideal S32x2 .f32)
    (X : FVec Ideal Gat.SNxK .f32) (W : FVec Ideal Gat.SKxU .f32) (KP : FVec Ideal Gat.S32x2 .f32) (b : ℕ)
    (hx : ∀ (y : S5000x128.Idx) (i : S100000x128.Idx), (i 0).val = b * 5000 + (y 0).val → (i 1).val = (y 1).val → xb y = X i)
    (hw : wb = W) (hk : kb = KP)
    (j : S5000x2.Idx) (i : S100000x2.Idx) (h0 : (i 0).val = b * 5000 + (j 0).val) (h1 : (i 1).val = (j 1).val) :
    k0_pay2 (F := Ideal) xb wb kb j = Gat.logits (Gat.proj X W) KP i := by
  obtain ⟨p, q, rfl⟩ : ∃ (p : Fin 5000) (q : Fin 2), j = ix2 p q := ⟨j 0, j 1, eq_ix2 j⟩
  obtain ⟨r, u, rfl⟩ : ∃ (r : Fin 100000) (u : Fin 2), i = ix2 r u := ⟨i 0, i 1, eq_ix2 i⟩
  obtain rfl : u = q := Fin.ext h1
  rw [pay2_apply, logits_apply, hw, hk]
  refine Finset.sum_congr rfl fun v _ => ?_
  rw [proj_apply]
  refine congrArg (· * KP (ix2 v u)) (Finset.sum_congr rfl fun k _ => ?_)
  rw [hx (ix2 p k) (ix2 r k) h0 rfl]

/-! ## What a point writes back is its block of the whole-array function -/

/-- Point `t` writes back block `t` of `X · W`. -/
theorem flushed3_eq (c : Dev nD) (t : Fin cfg0.N) :
    (dats m 0 c).flushed 3 t = ((cfg0.win 3).blk t).view.read (Elt Ideal) (Gat.proj (xarr m c) (warr m c)) := by
  show (cfg0.win 3).cut (grid0.coords t) ((dats m 0 c).after 3 t) = _
  rw [after0_3]
  unfold out0_3
  rw [View.canon_unit_zero hz]
  simp only [View.ld_unit_zero (S := S5000x128) hz, View.ld_unit_zero (S := S128x32) hz]
  obtain ⟨-, -, -, -, -, -, e6, e7, -⟩ := idx_facts t
  funext j
  show k0_pay1 (F := Ideal) (xblk m c t) (wblk m c t) ((cfg0.win 3).xinj (grid0.coords t) j)
    = Gat.proj (xarr m c) (warr m c) (((cfg0.win 3).blk t).view.emb j)
  refine pay1_rows (xblk m c t) (wblk m c t) (xarr m c) (warr m c) t.val (xblk_apply m c t) (wblk_eq m c t)
    ((cfg0.win 3).xinj (grid0.coords t) j) (((cfg0.win 3).blk t).view.emb j) ?_ ?_
  · show win0_3.index t (0 : Fin 2) * 5000 + 1 * (j 0).val = t.val * 5000 + (j 0).val; omega
  · show win0_3.index t (1 : Fin 2) * 32 + 1 * (j 1).val = (j 1).val; omega

/-- Point `t` writes back block `t` of `(X · W) · KP`. -/
theorem flushed4_eq (c : Dev nD) (t : Fin cfg0.N) :
    (dats m 0 c).flushed 4 t
      = ((cfg0.win 4).blk t).view.read (Elt Ideal) (Gat.logits (Gat.proj (xarr m c) (warr m c)) (karr m c)) := by
  show (cfg0.win 4).cut (grid0.coords t) ((dats m 0 c).after 4 t) = _
  rw [after0_4]
  unfold out0_4
  rw [View.canon_unit_zero hz]
  simp only [View.ld_unit_zero (S := S5000x128) hz, View.ld_unit_zero (S := S128x32) hz, View.ld_unit_zero (S := S32x2) hz]
  obtain ⟨-, -, -, -, -, -, -, -, e8, e9⟩ := idx_facts t
  funext j
  show k0_pay2 (F := Ideal) (xblk m c t) (wblk m c t) (kblk m c t) ((cfg0.win 4).xinj (grid0.coords t) j)
    = Gat.logits (Gat.proj (xarr m c) (warr m c)) (karr m c) (((cfg0.win 4).blk t).view.emb j)
  refine pay2_rows (xblk m c t) (wblk m c t) (kblk m c t) (xarr m c) (warr m c) (karr m c) t.val (xblk_apply m c t)
    (wblk_eq m c t) (kblk_eq m c t) ((cfg0.win 4).xinj (grid0.coords t) j) (((cfg0.win 4).blk t).view.emb j) ?_ ?_
  · show win0_4.index t (0 : Fin 2) * 5000 + 1 * (j 0).val = t.val * 5000 + (j 0).val; omega
  · show win0_4.index t (1 : Fin 2) * 2 + 1 * (j 1).val = (j 1).val; omega

/-! ## The 20 blocks tile the node axis -/

/-- An index is in point `t`'s block iff each coordinate is in the block's range on its axis. -/
theorem mem_blk3 (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v3_0).slice (win0_3.rect t)).set ↔ _
  rw [View.set_slice_whole, Rect.mem_set_unit]
  exact Iff.rfl

theorem mem_blk4 (t : Fin cfg0.N) (i : S100000x2.Idx) :
    i ∈ ((cfg0.win 4).blk t).view.set ↔ ∀ a : Fin 2, win0_4.index t a * S5000x2.size a ≤ (i a).val ∧ (i a).val < win0_4.index t a * S5000x2.size a + S5000x2.size a := by
  show i ∈ ((View.whole main_v3_1).slice (win0_4.rect t)).set ↔ _
  rw [View.set_slice_whole, Rect.mem_set_unit]
  exact Iff.rfl

/-- Row `r` lies in block `r / 5000`. -/
theorem cover3 (i : S100000x32.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 32 := (i 1).isLt
  obtain ⟨t, ht⟩ : ∃ t : Fin cfg0.N, t.val = (i 0).val / 5000 := ⟨⟨(i 0).val / 5000, by rw [hN]; omega⟩, rfl⟩
  obtain ⟨-, -, -, -, -, -, e6, e7, -⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

theorem cover4 (i : S100000x2.Idx) :
    ∃ t : Fin cfg0.N, (cfg0.win 4).flush t = true ∧ i ∈ ((cfg0.win 4).blk t).view.set := by
  have hN : cfg0.N = 20 := N_0
  have hi0 : (i 0).val < 100000 := (i 0).isLt
  have hi1 : (i 1).val < 2 := (i 1).isLt
  obtain ⟨t, ht⟩ : ∃ t : Fin cfg0.N, t.val = (i 0).val / 5000 := ⟨⟨(i 0).val / 5000, by rw [hN]; omega⟩, rfl⟩
  obtain ⟨-, -, -, -, -, -, -, -, e8, e9⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 2 ≤ (i 1).val ∧ (i 1).val < win0_4.index t (1 : Fin 2) * 2 + 2; omega

end Blocks

/-! ## The arrays after every write-back -/

variable (m : (ℓ : Loc nD τ sig) → Buf (Elt Ideal) ℓ)

open Blocks

/-- After every write-back the `h` array is `X · W`. -/
theorem final3 (c : Dev nD) :
    ((dats m 0 c).arrAt 3 cfg0.N : S100000x32.Idx → EReal)
      = Gat.proj (m ((c : Thread nD τ).loc main_arg0)) (m ((c : Thread nD τ).loc main_arg1)) := by
  refine ((dats m 0 c).arrAt_eq_of_cover 3 (Gat.proj (xarr m c) (warr m c)) (fun t _ => flushed3_eq m c t) cover3).trans ?_
  show Gat.proj (V m c main_arg0) (V m c main_arg1) = _
  rw [V_main_arg0, V_main_arg1]

/-- After every write-back the logits array is `(X · W) · [ka[0:32] | ka[32:64]]`. -/
theorem final4 (c : Dev nD) :
    ((dats m 0 c).arrAt 4 cfg0.N : S100000x2.Idx → EReal)
      = Gat.logits (Gat.proj (m ((c : Thread nD τ).loc main_arg0)) (m ((c : Thread nD τ).loc main_arg1)))
          (Gat.kaPair (m ((c : Thread nD τ).loc main_arg2))) := by
  refine ((dats m 0 c).arrAt_eq_of_cover 4 (Gat.logits (Gat.proj (xarr m c) (warr m c)) (karr m c))
    (fun t _ => flushed4_eq m c t) cover4).trans ?_
  show Gat.logits (Gat.proj (V m c main_arg0) (V m c main_arg1)) (V m c main_v2) = _
  rw [V_main_arg0, V_main_arg1, V_main_v2]

end Cert.KernelIdeal.Hand

end
-- ==== Proof.KITail.lean ====
/-
  The result of the tiled program, read through the array operations that follow the region: the attention-weighted
  segment sum (`Gat.tail`) of the rows of the `h` array looked up (with fill) at the destination ids, scored by the two
  columns of the logits array gathered at the source and destination ids.

  The operations come in seven stretches, and each stretch is read by itself, from arbitrary contents: the score; the
  leaky-relu; two constants; the clip; the exponential, the segment sum, its gather and the quotient; the filling row
  lookup; the scaling and the final segment sum. A stretch's inputs are single buffers of what the stretches before it
  left, so nothing is read twice; what a later stretch needs of an earlier one is kept because no stretch in between
  writes it.
-/
import proofs.«416682_j4217657885155_2_alg».proof.Proof.KIData
import proofs.«416682_j4217657885155_2_alg».proof.Proof.KIEntry
import proofs.«416682_j4217657885155_2_alg».proof.Proof.Spec
import Idealize.ShloMosaic.Lib.StableHlo.Run
import Idealize.ShloMosaic.Lib.Pipeline.FrameSuffix

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

/-- Running two lists of operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- A stretch keeps a buffer none of its operations writes: each operation writes only its own result. -/
local macro "stretch_keeps" ops:ident : tactic => `(tactic|
  (refine StableHlo.after_of_forall_not_mem _ _ (List.forall_iff_forall_mem.mp ?_)
   simp only [$ops:ident, List.Forall,
      StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

/-- Moving a value to a typed reference's buffer type and back is the identity. -/
theorem ofBuf_toBuf {T : BufTy} (x : StableHlo.TRef sig T) (v : T.Contents (Elt F)) :
    x.ofBuf (Val := Elt F) (x.toBuf v) = v := by
  obtain ⟨r, rfl, _, _⟩ := x
  rfl

/-- The filling row lookup over any rows `h` and ids `d`, written as the operations spell it, is `Gat.takeRows h d`: the
    same operations applied to the same operands. -/
theorem take_core (h : FVec F S100000x32 .f32) (d : IVec S1600000 32) :
    select
        (broadcastInDim S1600000x32 ![0] bcast_S1600000_S1600000x32_0
          (Host.reduce IntOp.andi
            (andi
              (cmpi .sge
                (broadcastInDim S1600000x1 ![0] bcast_S1600000_S1600000x1_0
                  (select (cmpi .slt d (broadcastInDim S1600000 ![] bcast_S_S1600000 (constantI S_ 32 0#32)))
                    (addi d (broadcastInDim S1600000 ![] bcast_S_S1600000 (constantI S_ 32 100000#32))) d))
                (broadcastInDim S1600000x1 ![] bcast_S_S1600000x1 (constantI S_ 32 0#32)))
              (cmpi .sle
                (broadcastInDim S1600000x1 ![0] bcast_S1600000_S1600000x1_0
                  (select (cmpi .slt d (broadcastInDim S1600000 ![] bcast_S_S1600000 (constantI S_ 32 0#32)))
                    (addi d (broadcastInDim S1600000 ![] bcast_S_S1600000 (constantI S_ 32 100000#32))) d))
                (broadcastInDim S1600000x1 ![0, 1] bcast_S1x1_S1600000x1_0_1
                  (broadcastInDim S1x1 ![1] bcast_S1_S1x1_1 (constantI S1 32 99999#32)))))
            (constantI S_ 1 1#1) reducesTo_S1600000x1_S1600000_d1 h_S_))
        (Host.gather gather_S100000x32_S1600000x1_S1600000x32_1_0_n_n_0_1_132 h
          (broadcastInDim S1600000x1 ![0] bcast_S1600000_S1600000x1_0
            (select (cmpi .slt d (broadcastInDim S1600000 ![] bcast_S_S1600000 (constantI S_ 32 0#32)))
              (addi d (broadcastInDim S1600000 ![] bcast_S_S1600000 (constantI S_ 32 100000#32))) d)))
        (broadcastInDim S1600000x32 ![] bcast_S_S1600000x32 (constant S_ .f32 0x7FC00000#32))
      = Gat.takeRows h d := by
  unfold Gat.takeRows Gat.inBounds Gat.colIdx Gat.wrapIdx
  rfl

section Stretches

variable (V : Valuation τ sig (Elt F))

/-! ### The score -/

theorem s1_score :
    (StableHlo.after hostOps1 V (Proc.devRef .tc main_v22) : S1600000.Idx → F .f32)
      = Gat.scoreNodes (V (Proc.devRef .tc main_v3_1)) (V (Proc.devRef .tc main_arg3)) (V (Proc.devRef .tc main_arg4)) := by
  simp only [hostOps1]
  after_results_simp
  unfold Gat.scoreNodes Gat.logitCol0 Gat.logitCol1 Gat.colIdx Gat.wrapIdx
  rfl

theorem s1_slope : (StableHlo.after hostOps1 V (Proc.devRef .tc main_cst) : S_.Idx → F .f32) = constant S_ .f32 0x3E4CCCCD#32 := by
  simp only [hostOps1]
  after_results_simp

theorem s1_arg3 : StableHlo.after hostOps1 V (Proc.devRef .tc main_arg3) = (V (Proc.devRef .tc main_arg3)) := by stretch_keeps hostOps1
theorem s1_arg4 : StableHlo.after hostOps1 V (Proc.devRef .tc main_arg4) = (V (Proc.devRef .tc main_arg4)) := by stretch_keeps hostOps1
theorem s1_h : StableHlo.after hostOps1 V (Proc.devRef .tc main_v3_0) = (V (Proc.devRef .tc main_v3_0)) := by stretch_keeps hostOps1

/-! ### Leaky-relu -/

theorem s2_lrelu (hc : ((V (Proc.devRef .tc main_cst)) : S_.Idx → F .f32) = constant S_ .f32 0x3E4CCCCD#32) :
    (StableHlo.after hostOps1_1 V (Proc.devRef .tc main_v23) : S1600000.Idx → F .f32) = Gat.leakyRelu (V (Proc.devRef .tc main_v22)) := by
  simp only [hostOps1_1]
  after_results_simp
  simp only [ofBuf_toBuf]
  rw [hc]
  unfold Gat.leakyRelu
  rfl

theorem s2_arg3 : StableHlo.after hostOps1_1 V (Proc.devRef .tc main_arg3) = (V (Proc.devRef .tc main_arg3)) := by stretch_keeps hostOps1_1
theorem s2_arg4 : StableHlo.after hostOps1_1 V (Proc.devRef .tc main_arg4) = (V (Proc.devRef .tc main_arg4)) := by stretch_keeps hostOps1_1
theorem s2_h : StableHlo.after hostOps1_1 V (Proc.devRef .tc main_v3_0) = (V (Proc.devRef .tc main_v3_0)) := by stretch_keeps hostOps1_1

/-! ### The clip's bounds -/

theorem s3_lo : (StableHlo.after hostOps1_2 V (Proc.devRef .tc main_cst_3) : S_.Idx → F .f32) = constant S_ .f32 0xC0000000#32 := by
  simp only [hostOps1_2]
  after_results_simp
theorem s3_hi : (StableHlo.after hostOps1_2 V (Proc.devRef .tc main_cst_4) : S_.Idx → F .f32) = constant S_ .f32 0x40000000#32 := by
  simp only [hostOps1_2]
  after_results_simp
theorem s3_x : StableHlo.after hostOps1_2 V (Proc.devRef .tc main_v23) = (V (Proc.devRef .tc main_v23)) := by stretch_keeps hostOps1_2
theorem s3_arg3 : StableHlo.after hostOps1_2 V (Proc.devRef .tc main_arg3) = (V (Proc.devRef .tc main_arg3)) := by stretch_keeps hostOps1_2
theorem s3_arg4 : StableHlo.after hostOps1_2 V (Proc.devRef .tc main_arg4) = (V (Proc.devRef .tc main_arg4)) := by stretch_keeps hostOps1_2
theorem s3_h : StableHlo.after hostOps1_2 V (Proc.devRef .tc main_v3_0) = (V (Proc.devRef .tc main_v3_0)) := by stretch_keeps hostOps1_2

/-! ### The clip -/

theorem s4_clip (hlo : ((V (Proc.devRef .tc main_cst_3)) : S_.Idx → F .f32) = constant S_ .f32 0xC0000000#32)
    (hhi : ((V (Proc.devRef .tc main_cst_4)) : S_.Idx → F .f32) = constant S_ .f32 0x40000000#32) :
    (StableHlo.after hostOps1_3 V (Proc.devRef .tc main_v24) : S1600000.Idx → F .f32) = Gat.clip2 (V (Proc.devRef .tc main_v23)) := by
  simp only [hostOps1_3]
  after_results_simp
  simp only [ofBuf_toBuf]
  rw [hlo, hhi]
  unfold Gat.clip2
  rfl

theorem s4_arg3 : StableHlo.after hostOps1_3 V (Proc.devRef .tc main_arg3) = (V (Proc.devRef .tc main_arg3)) := by stretch_keeps hostOps1_3
theorem s4_arg4 : StableHlo.after hostOps1_3 V (Proc.devRef .tc main_arg4) = (V (Proc.devRef .tc main_arg4)) := by stretch_keeps hostOps1_3
theorem s4_h : StableHlo.after hostOps1_3 V (Proc.devRef .tc main_v3_0) = (V (Proc.devRef .tc main_v3_0)) := by stretch_keeps hostOps1_3

/-! ### The attention -/

theorem s5_attention :
    (StableHlo.after hostOps1_4 V (Proc.devRef .tc main_v36) : S1600000.Idx → F .f32)
      = Gat.attention (Host.exp (V (Proc.devRef .tc main_v24))) (V (Proc.devRef .tc main_arg3)) := by
  simp only [hostOps1_4]
  after_results_simp
  unfold Gat.attention Gat.denom Gat.colIdx Gat.wrapIdx
  rfl

theorem s5_arg3 : StableHlo.after hostOps1_4 V (Proc.devRef .tc main_arg3) = (V (Proc.devRef .tc main_arg3)) := by stretch_keeps hostOps1_4
theorem s5_arg4 : StableHlo.after hostOps1_4 V (Proc.devRef .tc main_arg4) = (V (Proc.devRef .tc main_arg4)) := by stretch_keeps hostOps1_4
theorem s5_h : StableHlo.after hostOps1_4 V (Proc.devRef .tc main_v3_0) = (V (Proc.devRef .tc main_v3_0)) := by stretch_keeps hostOps1_4

/-! ### The destination rows -/

theorem s6_rows :
    (StableHlo.after hostOps1_5 V (Proc.devRef .tc main_v37) : S1600000x32.Idx → F .f32)
      = Gat.takeRows (V (Proc.devRef .tc main_v3_0)) (V (Proc.devRef .tc main_arg4)) := by
  simp only [hostOps1_5]
  after_results_simp
  simp only [ofBuf_toBuf]
  -- the inputs and the result are read at their own buffers' types, which are the values' types
  have hd : (StableHlo.TRef.of main_arg4 : StableHlo.TRef sig ⟨S1600000, .i32⟩).ofBuf (Val := Elt F) (V (Proc.devRef .tc main_arg4))
      = V (Proc.devRef .tc main_arg4) := rfl
  have hh : (StableHlo.TRef.of main_v3_0 : StableHlo.TRef sig ⟨S100000x32, .f32⟩).ofBuf (Val := Elt F) (V (Proc.devRef .tc main_v3_0))
      = V (Proc.devRef .tc main_v3_0) := rfl
  have ht : ∀ x : (⟨S1600000x32, .f32⟩ : BufTy).Contents (Elt F),
      (StableHlo.TRef.of main_v37 : StableHlo.TRef sig ⟨S1600000x32, .f32⟩).toBuf x = x := fun _ => rfl
  rw [hd, hh, ht]
  exact take_core _ _

theorem s6_att : StableHlo.after hostOps1_5 V (Proc.devRef .tc main_v36) = (V (Proc.devRef .tc main_v36)) := by stretch_keeps hostOps1_5
theorem s6_arg3 : StableHlo.after hostOps1_5 V (Proc.devRef .tc main_arg3) = (V (Proc.devRef .tc main_arg3)) := by stretch_keeps hostOps1_5

/-! ### The weighted segment sum -/

theorem s7_sum :
    (StableHlo.after hostOps1_6 V (Proc.devRef .tc main_v43) : S100000x32.Idx → F .f32)
      = Host.scatterAdd Gat.scRows (broadcastInDim Gat.SNxU ![] Gat.bc_NU (constant Gat.S_ .f32 0x00000000#32))
          (broadcastInDim Gat.SEx1 ![0] Gat.bcE_Ex1 (V (Proc.devRef .tc main_arg3)))
          (mulf (V (Proc.devRef .tc main_v37)) (broadcastInDim Gat.SEx32 ![0, 1] Gat.bcEx1_Ex32 (broadcastInDim Gat.SEx1 ![0] Gat.bcE_Ex1 (V (Proc.devRef .tc main_v36))))) := by
  simp only [hostOps1_6]
  after_results_simp
  rfl

end Stretches

/-! ### All seven, from any contents -/

/-- From any contents `W`, the result buffer after the seven stretches. -/
theorem tail_value (W : Valuation τ sig (Elt F)) :
    (StableHlo.after (List.flatten tailOps) W (Proc.devRef .tc main_v43) : S100000x32.Idx → F .f32)
      = Gat.tail (Gat.takeRows (W (Proc.devRef .tc main_v3_0)) (W (Proc.devRef .tc main_arg4)))
          (Gat.scoreNodes (W (Proc.devRef .tc main_v3_1)) (W (Proc.devRef .tc main_arg3)) (W (Proc.devRef .tc main_arg4)))
          (W (Proc.devRef .tc main_arg3)) := by
  simp only [tailOps, List.flatten_cons, List.flatten_nil, List.append_nil, after_append]
  rw [s7_sum, s6_rows, s6_att, s6_arg3, s5_attention, s5_arg3, s5_arg4, s5_h,
    s4_clip _ (by rw [s3_lo]) (by rw [s3_hi]), s4_arg3, s4_arg4, s4_h, s3_x, s3_arg3, s3_arg4, s3_h,
    s2_lrelu _ (by rw [s1_slope]), s2_arg3, s2_arg4, s2_h, s1_score, s1_arg3, s1_arg4, s1_h]
  unfold Gat.tail Gat.weights
  rfl

variable (m : (ℓ : Loc nD τ sig) → Buf (Elt F) ℓ)

/-- The `h` array after every write-back. -/
abbrev hArr (c : Dev nD) : S100000x32.Idx → F .f32 := (dats m 0 c).arrAt 3 cfg0.N
/-- The logits array after every write-back. -/
abbrev lgArr (c : Dev nD) : S100000x2.Idx → F .f32 := (dats m 0 c).arrAt 4 cfg0.N

/-- The result buffer after the operations that follow the region, from what the region leaves: its two result arrays
    as written back, every other buffer as the region found it. -/
theorem result_eq (c : Dev nD) :
    (Pipeline.afterTail₀ cfgs (dats m) 0 (V0 m) tailOps c main_v43 : S100000x32.Idx → F .f32)
      = Gat.tail (Gat.takeRows (hArr m c) (m ((c : Thread nD τ).loc main_arg4)))
          (Gat.scoreNodes (lgArr m c) (m ((c : Thread nD τ).loc main_arg3)) (m ((c : Thread nD τ).loc main_arg4)))
          (m ((c : Thread nD τ).loc main_arg3)) := by
  have h3 : Pipeline.withArrays spec0 c (V0 m c) (fun w => (dats m 0 c).arrAt w cfg0.N) (Proc.devRef .tc main_v3_0)
      = (dats m 0 c).arrAt 3 cfg0.N := Pipeline.withArrays_arr spec0 launch0.win.arr_inj c _ _ 3
  have h4 : Pipeline.withArrays spec0 c (V0 m c) (fun w => (dats m 0 c).arrAt w cfg0.N) (Proc.devRef .tc main_v3_1)
      = (dats m 0 c).arrAt 4 cfg0.N := Pipeline.withArrays_arr spec0 launch0.win.arr_inj c _ _ 4
  have hs : Pipeline.withArrays spec0 c (V0 m c) (fun w => (dats m 0 c).arrAt w cfg0.N) (Proc.devRef .tc main_arg3)
      = m ((c : Thread nD τ).loc main_arg3) :=
    (Pipeline.withArrays_of_ne spec0 c (V0 m c) _ main_arg3 (by exact (by decide : ∀ w, Pipeline.arrRef spec0 w ≠ main_arg3))).trans
      (V_main_arg3 m c)
  have hd : Pipeline.withArrays spec0 c (V0 m c) (fun w => (dats m 0 c).arrAt w cfg0.N) (Proc.devRef .tc main_arg4)
      = m ((c : Thread nD τ).loc main_arg4) :=
    (Pipeline.withArrays_of_ne spec0 c (V0 m c) _ main_arg4 (by exact (by decide : ∀ w, Pipeline.arrRef spec0 w ≠ main_arg4))).trans
      (V_main_arg4 m c)
  unfold Pipeline.afterTail₀
  show StableHlo.after (List.flatten tailOps)
    (Pipeline.withArrays spec0 c (V0 m c) (fun w => (dats m 0 c).arrAt w cfg0.N)) (Proc.devRef .tc main_v43) = _
  rw [tail_value, h3, h4, hs, hd]

end Cert.KernelIdeal.Hand

end
-- ==== Proof.Math.lean ====
/-
  Two facts about sums over the extended reals.

  A matrix product read at an index is the sum of products along the contracted axis. And the 64-term inner product of
  `h (src e) ++ h (dst e)` with `ka` is the sum of the two 32-term inner products of the halves: a sum over `Fin 64`
  split at 32, which needs only that addition is commutative and associative, so it holds at the infinities too.
-/
import proofs.«416682_j4217657885155_2_alg».proof.Proof.Spec
import Idealize.ShloMosaic.PureOps.Ideal.Laws
import Idealize.ShloMosaic.Lib.Pipeline.Value
import Idealize.ShloMosaic.Lib.ValueLayout

noncomputable section

namespace Cert.Gat

open Idealize.ShloMosaic Idealize.ShloMosaic.ValueIdx

/-! ## A matrix product read at an index

Both products contract the left operand's axis 1 with the right operand's axis 0. At result index `(p, q)` and
contraction position `c` the left operand is read at `(p, c)` and the right one at `(c, q)`; the contraction index
set has one axis, so a sum over it is a sum over the positions `0 … K - 1`. -/

namespace Math

/-- The left operand's row is the result's row. -/
theorem dotN_lhs_0 (j : SNxU.Idx) (κ : dotN.contr.Idx) : (dotN.lhsIdx j κ 0).val = (j 0).val := by
  simp only [Fin.isValue, Matrix.cons_val_zero, DotDims.lhsIdx, dotN, List.not_mem_nil, ↓reduceDIte,
    List.mem_cons, or_false, List.length_nil]
  rfl

/-- The right operand's column is the result's column. -/
theorem dotN_rhs_1 (j : SNxU.Idx) (κ : dotN.contr.Idx) : (dotN.rhsIdx j κ 1).val = (j 1).val := by
  simp only [Fin.isValue, Matrix.cons_val_one, Matrix.cons_val_zero, DotDims.rhsIdx, dotN, List.not_mem_nil,
    ↓reduceDIte, List.mem_cons, or_false, List.length_nil, List.length_cons, Nat.reduceAdd]
  rfl

/-- `X · W` at `(p, q)` is `∑ k, X[p, k] * W[k, q]`. -/
theorem dotN_apply (X : FVec Ideal SNxK .f32) (W : FVec Ideal SKxU .f32) (p : Fin 100000) (q : Fin 32) :
    Host.dotGeneral dotN none X W (ix2 p q) = ∑ k : Fin 128, X (ix2 p k) * W (ix2 k q) := by
  show FloatOps.dotGeneral dotN none _ X W (ix2 p q) = _
  rw [Ideal.dotGeneral_apply, ← Equiv.sum_comp (contrEquiv1 dotN 128 rfl rfl).symm]
  refine Finset.sum_congr rfl fun c _ => ?_
  have hc := contrEquiv1_symm_val dotN 128 rfl rfl c
  have hl : dotN.lhsIdx (ix2 p q) ((contrEquiv1 dotN 128 rfl rfl).symm c) = ix2 p c := by
    funext a; apply Fin.ext
    match a with
    | ⟨0, _⟩ => exact dotN_lhs_0 _ _
    | ⟨1, _⟩ => exact (dotN.lhsIdx_val_of_single rfl _ _).trans hc
  have hr : dotN.rhsIdx (ix2 p q) ((contrEquiv1 dotN 128 rfl rfl).symm c) = ix2 c q := by
    funext a; apply Fin.ext
    match a with
    | ⟨0, _⟩ => exact (dotN.rhsIdx_val_of_single rfl _ _).trans hc
    | ⟨1, _⟩ => exact dotN_rhs_1 _ _
  rw [hl, hr]

/-- The left operand's row is the result's row. -/
theorem dotE_lhs_0 (j : SEx1.Idx) (κ : dotE.contr.Idx) : (dotE.lhsIdx j κ 0).val = (j 0).val := by
  simp only [Fin.isValue, Matrix.cons_val_zero, DotDims.lhsIdx, dotE, List.not_mem_nil, ↓reduceDIte,
    List.mem_cons, or_false, List.length_nil]
  rfl

/-- The right operand's column is the result's column (both have one column, so both are column 0). -/
theorem dotE_rhs_1 (j : SEx1.Idx) (κ : dotE.contr.Idx) : (dotE.rhsIdx j κ 1).val = (j 1).val := by
  simp only [Fin.isValue, Matrix.cons_val_one, Matrix.cons_val_zero, DotDims.rhsIdx, dotE, List.not_mem_nil,
    ↓reduceDIte, List.mem_cons, or_false, List.length_nil, List.length_cons, Nat.reduceAdd, Fin.val_eq_zero]
  have := idx2_lt1 j
  omega

/-- `A · v` at `(e, q)` is `∑ c, A[e, c] * v[c, q]`. -/
theorem dotE_apply (A : FVec Ideal SEx64 .f32) (v : FVec Ideal S64x1 .f32) (e : Fin 1600000) (q : Fin 1) :
    Host.dotGeneral dotE none A v (ix2 e q) = ∑ c : Fin 64, A (ix2 e c) * v (ix2 c q) := by
  show FloatOps.dotGeneral dotE none _ A v (ix2 e q) = _
  rw [Ideal.dotGeneral_apply, ← Equiv.sum_comp (contrEquiv1 dotE 64 rfl rfl).symm]
  refine Finset.sum_congr rfl fun c _ => ?_
  have hc := contrEquiv1_symm_val dotE 64 rfl rfl c
  have hl : dotE.lhsIdx (ix2 e q) ((contrEquiv1 dotE 64 rfl rfl).symm c) = ix2 e c := by
    funext a; apply Fin.ext
    match a with
    | ⟨0, _⟩ => exact dotE_lhs_0 _ _
    | ⟨1, _⟩ => exact (dotE.lhsIdx_val_of_single rfl _ _).trans hc
  have hr : dotE.rhsIdx (ix2 e q) ((contrEquiv1 dotE 64 rfl rfl).symm c) = ix2 c q := by
    funext a; apply Fin.ext
    match a with
    | ⟨0, _⟩ => exact (dotE.rhsIdx_val_of_single rfl _ _).trans hc
    | ⟨1, _⟩ => exact dotE_rhs_1 _ _
  rw [hl, hr]

/-! ## A sum of 64 terms split at 32 -/

/-- Position `c` of the first half of a 64-vector. -/
def lo (c : Fin 32) : Fin 64 := ⟨c.val, by omega⟩
/-- Position `c` of the second half of a 64-vector. -/
def hi (c : Fin 32) : Fin 64 := ⟨32 + c.val, by omega⟩

/-- In a commutative monoid a sum over 64 positions is the sum over the first 32 plus the sum over the last 32
    (no subtraction is involved, so this holds of extended reals too). -/
theorem sum_split64 {M : Type} [AddCommMonoid M] (f : Fin 64 → M) :
    ∑ c : Fin 64, f c = ∑ c : Fin 32, f (lo c) + ∑ c : Fin 32, f (hi c) :=
  Fin.sum_univ_add (a := 32) (b := 32) f

/-! ## The layout operations read at an index -/

section Layout
variable {α : Type}

/-- A column `[E, 1]` cast to a vector `[E]`: element `e` is the column's entry `(e, 0)`. -/
theorem castE_apply (x : SEx1.Idx → α) (e : Fin 1600000) : shapeCast SE x scE (ix1 e) = x (ix2 e 0) := by
  refine shapeCast_apply x scE (ix1 e) (ix2 e 0) ?_
  rw [Shape.rowMajor_val_two, Shape.rowMajor_val_one]
  show e.val * 1 + 0 = e.val
  omega

/-- A column `[N, 1]` cast to a vector `[N]`: element `n` is the column's entry `(n, 0)`. -/
theorem castN_apply (x : SNx1.Idx → α) (n : Fin 100000) : shapeCast SN x scN (ix1 n) = x (ix2 n 0) := by
  refine shapeCast_apply x scN (ix1 n) (ix2 n 0) ?_
  rw [Shape.rowMajor_val_two, Shape.rowMajor_val_one]
  show n.val * 1 + 0 = n.val
  omega

/-- Two `[E, 32]` arrays side by side: a column in the first half reads the first array. -/
theorem catE_lo (A B : SEx32.Idx → α) (e : Fin 1600000) (c : Fin 32) :
    concatenate SEx64 1 [⟨SEx32, A⟩, ⟨SEx32, B⟩] catE (ix2 e (lo c)) = A (ix2 e c) := by
  refine concatenate_pair_apply_left 1 A B catE (ix2 e (lo c)) rfl (ix2 e c) fun b => ?_
  match b with
  | ⟨0, _⟩ => rfl
  | ⟨1, _⟩ => rfl

/-- Two `[E, 32]` arrays side by side: a column in the second half reads the second array, 32 columns back. -/
theorem catE_hi (A B : SEx32.Idx → α) (e : Fin 1600000) (c : Fin 32) :
    concatenate SEx64 1 [⟨SEx32, A⟩, ⟨SEx32, B⟩] catE (ix2 e (hi c)) = B (ix2 e c) := by
  refine concatenate_pair_apply_right 1 A B catE (ix2 e (hi c)) rfl rfl (ix2 e c) (fun b hb => ?_) ?_
  · match b with
    | ⟨0, _⟩ => rfl
    | ⟨1, _⟩ => exact absurd rfl hb
  · show c.val + 32 = 32 + c.val
    omega

end Layout

/-- The attention vector's pair, column 0: entry `u` is `ka[u]`. -/
theorem kaPair_0 (ka : FVec Ideal S64x1 .f32) (u : Fin 32) : kaPair ka (ix2 u 0) = ka (ix2 (lo u) 0) := by
  unfold kaPair
  refine (concatenate_pair_apply_left 1 _ _ catKa (ix2 u 0) rfl (ix2 u 0) fun b => ?_).trans ?_
  · match b with
    | ⟨0, _⟩ => rfl
    | ⟨1, _⟩ => rfl
  · refine extractStridedSlice_apply ![0, 0] ka slKa_0 (ix2 u 0) (ix2 (lo u) 0) fun a => ?_
    match a with
    | ⟨0, _⟩ => exact (Nat.zero_add _).symm
    | ⟨1, _⟩ => rfl

/-- The attention vector's pair, column 1: entry `u` is `ka[32 + u]`. -/
theorem kaPair_1 (ka : FVec Ideal S64x1 .f32) (u : Fin 32) : kaPair ka (ix2 u 1) = ka (ix2 (hi u) 0) := by
  unfold kaPair
  refine (concatenate_pair_apply_right 1 _ _ catKa (ix2 u 1) rfl rfl (ix2 u 0) (fun b hb => ?_) rfl).trans ?_
  · match b with
    | ⟨0, _⟩ => rfl
    | ⟨1, _⟩ => exact absurd rfl hb
  · refine extractStridedSlice_apply ![32, 0] ka slKa_32 (ix2 u 0) (ix2 (hi u) 0) fun a => ?_
    match a with
    | ⟨0, _⟩ => rfl
    | ⟨1, _⟩ => rfl

/-- Column 0 of the per-node logits as a vector: entry `n` is `lg[n, 0]`. -/
theorem logitCol0_apply (lg : FVec Ideal SNx2 .f32) (n : Fin 100000) : logitCol0 lg (ix1 n) = lg (ix2 n 0) := by
  unfold logitCol0
  rw [castN_apply]
  refine extractStridedSlice_apply ![0, 0] lg slN_0 (ix2 n 0) (ix2 n 0) fun a => ?_
  match a with
  | ⟨0, _⟩ => exact (Nat.zero_add _).symm
  | ⟨1, _⟩ => rfl

/-- Column 1 of the per-node logits as a vector: entry `n` is `lg[n, 1]`. -/
theorem logitCol1_apply (lg : FVec Ideal SNx2 .f32) (n : Fin 100000) : logitCol1 lg (ix1 n) = lg (ix2 n 1) := by
  unfold logitCol1
  rw [castN_apply]
  refine extractStridedSlice_apply ![0, 1] lg slN_1 (ix2 n 0) (ix2 n 1) fun a => ?_
  match a with
  | ⟨0, _⟩ => exact (Nat.zero_add _).symm
  | ⟨1, _⟩ => rfl

/-! ## The gathers read at an index

A row gather and an element gather by the same column of index words clamp the same word the same way, so both read
at the same node. -/

theorem posN : 0 < 100000 := by decide

/-- The node an edge's index word names: the word read signed and clamped into `[0, N - 1]`. -/
def node (idx : IVec SEx1 32) (e : Fin 1600000) : Fin 100000 := Cert.Gcn.crow 100000 posN (idx (ix2 e 0))

/-- An element gather at edge `e` reads the vector at the edge's node. -/
theorem gVec_apply (x : FVec Ideal SN .f32) (idx : IVec SEx1 32) (e : Fin 1600000) :
    Host.gather gVec x idx (ix1 e) = x (ix1 (node idx e)) :=
  Cert.Gcn.gatherVec_apply posN wfGatherVec x idx (ix1 e)

/-- A row gather at edge `e`, column `c`, reads the array at the edge's node, same column. -/
theorem gRows_apply (x : FVec Ideal SNxU .f32) (idx : IVec SEx1 32) (e : Fin 1600000) (c : Fin 32) :
    Host.gather gRows x idx (ix2 e c) = x (ix2 (node idx e) c) :=
  Cert.Gcn.gatherRows_apply posN wfGatherRows x idx (ix2 e c)

/-- The per-node logits at `(n, c)`. -/
theorem logits_apply (h : FVec Ideal SNxU .f32) (kp : FVec Ideal S32x2 .f32) (n : Fin 100000) (c : Fin 2) :
    logits h kp (ix2 n c) = ∑ u : Fin 32, h (ix2 n u) * kp (ix2 u c) := rfl

end Math

open Math

/-- The whole-array matrix product is `proj`, index by index. -/
theorem dot_eq_proj (X : FVec Ideal SNxK .f32) (W : FVec Ideal SKxU .f32) :
    Host.dotGeneral dotN none X W = proj X W := by
  funext i
  obtain ⟨p, q, rfl⟩ : ∃ (p : Fin 100000) (q : Fin 32), i = ix2 p q := ⟨i 0, i 1, eq_ix2 i⟩
  exact dotN_apply X W p q

/-- The score computed from gathered rows is the score computed from per-node logits. -/
theorem scoreRows_eq (h : FVec Ideal SNxU .f32) (ka : FVec Ideal S64x1 .f32) (src dst : IVec SE 32) :
    scoreRows h ka src dst = scoreNodes (logits h (kaPair ka)) src dst := by
  funext i
  obtain ⟨e, rfl⟩ : ∃ e : Fin 1600000, i = ix1 e := ⟨i 0, eq_ix1 i⟩
  unfold scoreRows scoreNodes
  -- left: the cast column, the product as 64 terms, split at 32; right: the two gathered logits, each 32 terms
  rw [castE_apply, dotE_apply, sum_split64, addf_apply, gVec_apply, gVec_apply, logitCol0_apply, logitCol1_apply,
    logits_apply, logits_apply]
  -- term by term: the first 32 columns are `h` at the source node against `ka[0:32]`, the last 32 are `h` at the
  -- destination node against `ka[32:64]`
  refine congrArg₂ (· + ·) (Finset.sum_congr rfl fun c _ => ?_) (Finset.sum_congr rfl fun c _ => ?_)
  · rw [catE_lo, gRows_apply, kaPair_0]
  · rw [catE_hi, gRows_apply, kaPair_1]

end Cert.Gat

end
-- ==== Proof.Take.lean ====
/-
  Where every destination index lies in `[0, N)`, the filling row lookup is the clamping gather: no index is negative, so
  none is wrapped; every wrapped index passes both bound tests, so no row is filled. The range itself is what the
  precondition's last conjunct says, element by element.
-/
import proofs.«416682_j4217657885155_2_alg».proof.Proof.Spec
import proofs.«416682_j4217657885155_2_alg».proof.Pre_finite_inputs
import proofs.«416682_j4217657885155_2_alg».proof.Proof.Gen.Pre_finite_inputs
import Idealize.ShloMosaic.Lib.ReduceAll
import Idealize.ShloMosaic.Lib.StableHlo.Predicate

noncomputable section

namespace Cert.Gat

open Idealize.ShloMosaic Idealize.ShloMosaic.ValueIdx

/-- Every index word, read signed, is a row number. -/
def InRange (dst : IVec SE 32) : Prop := ∀ e : SE.Idx, 0 ≤ (dst e).toInt ∧ (dst e).toInt < 100000

variable {F : FTy → Type} [FloatOps F]

namespace Take

/-- The three literals the index tests compare against, read signed. -/
theorem toInt_zero32 : (0#32 : BitVec 32).toInt = 0 := by decide
theorem toInt_N32 : (100000#32 : BitVec 32).toInt = 100000 := by decide
theorem toInt_Nm1_32 : (99999#32 : BitVec 32).toInt = 99999 := by decide

/-- An and-fold over one-bit words that starts at 1 and meets only 1s ends at 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- No index in range is negative, so wrapping changes none. -/
theorem wrapIdx_eq (dst : IVec SE 32) (hr : InRange dst) : wrapIdx dst = dst := by
  funext e
  have hneg : ¬ IntOp.cmpi .slt (dst e) (0#32) = 1#1 := by
    intro hc
    have h := IntOp.cmpi_slt.1 hc
    rw [toInt_zero32] at h
    have := (hr e).1
    omega
  show Scalar.select (IntOp.cmpi .slt (dst e) (0#32)) (IntOp.addi (dst e) (100000#32)) (dst e) = dst e
  unfold Scalar.select
  exact if_neg hneg

/-- In range, every edge passes both bound tests. -/
theorem inBounds_eq_one (dst : IVec SE 32) (hr : InRange dst) (e : SE.Idx) : inBounds dst e = 1#1 := by
  unfold inBounds
  rw [Host.reduce_eq_foldl]
  refine foldl_andi_one _ (fun i => ?_) _
  obtain ⟨e', he'⟩ : ∃ e' : SE.Idx, colIdx dst i = dst e' := ⟨_, by unfold colIdx; rw [wrapIdx_eq dst hr]; rfl⟩
  show IntOp.andi (IntOp.cmpi .sge (colIdx dst i) (0#32)) (IntOp.cmpi .sle (colIdx dst i) (99999#32)) = 1#1
  rw [he', IntOp.andi_eq_one]
  refine ⟨IntOp.cmpi_sge.2 ?_, IntOp.cmpi_sle.2 ?_⟩
  · rw [toInt_zero32]; exact (hr e').1
  · rw [toInt_Nm1_32]; have := (hr e').2; omega

end Take

/-- In range, the lookup that fills is the gather that clamps. -/
theorem takeRows_eq (h : FVec F SNxU .f32) (dst : IVec SE 32) (hr : InRange dst) :
    takeRows h dst = gatherRows h dst := by
  funext j
  have hmask : broadcastInDim SEx32 ![0] bcE_Ex32 (inBounds dst) j = 1#1 := Take.inBounds_eq_one dst hr _
  simp only [takeRows, gatherRows, select]
  rw [hmask]
  exact if_pos rfl

/-- The precondition puts every destination index in range. -/
theorem inRange_of_pre (X : FVec F SNxK .f32) (W : FVec F SKxU .f32) (ka : FVec F S64x1 .f32) (src dst : IVec SE 32)
    (hpre : Cert.Pre_finite_inputs.fn (F := F) X W ka src dst = fun _ => 1#1) : InRange dst := by
  intro e
  -- a rank-zero array has one index, so the closing and-reduction is over every edge
  haveI : Subsingleton Cert.Pre_finite_inputs.S_.Idx := ⟨fun a b => funext fun d => d.elim0⟩
  have h0 := congrFun hpre ValueIdx.ix0
  dsimp only [Cert.Pre_finite_inputs.fn, Cert.Pre_finite_inputs.fn_part1] at h0
  -- the result is an and of four bits: the last is the and over all edges of the two signed compares
  obtain ⟨-, hall⟩ := IntOp.andi_eq_one.1 h0
  have hel := Host.reduce_andi_all _ _ _ _ _ hall e
  obtain ⟨hge, hlt⟩ := IntOp.andi_eq_one.1 hel
  have hge' := IntOp.cmpi_sge.1 hge
  have hlt' := IntOp.cmpi_slt.1 hlt
  refine ⟨?_, ?_⟩
  · rw [← Take.toInt_zero32]; exact hge'
  · rw [← Take.toInt_N32]; exact hlt'

end Cert.Gat

end
-- ==== Proof.KIRun.lean ====
/-
  The tiled program's run, with its result named: where every destination id is a row number, the result buffer ends at
  the attention-weighted segment sum of the gathered rows of `X · W`, scored by the 64-term inner product — the same
  function of the five arguments the reference computes.

  The region leaves `X · W` and its per-node logits in its two result arrays. Read through the operations after it, the
  result is `Gat.tail` of the rows looked up with a fill and of the score gathered from the logits. In range the lookup
  with a fill is the clamping gather, and the score from logits is the 64-term inner product split at 32.
-/
import proofs.«416682_j4217657885155_2_alg».proof.Proof.KIFrame
import proofs.«416682_j4217657885155_2_alg».proof.Proof.KIValue
import proofs.«416682_j4217657885155_2_alg».proof.Proof.KITail
import proofs.«416682_j4217657885155_2_alg».proof.Proof.Math
import proofs.«416682_j4217657885155_2_alg».proof.Proof.Take

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The result as a function of the five arguments, in the reference's spelling. -/
def valueOf (X : FVec Ideal Gat.SNxK .f32) (W : FVec Ideal Gat.SKxU .f32) (ka : FVec Ideal Gat.S64x1 .f32)
    (src dst : IVec Gat.SE 32) : FVec Ideal Gat.SNxU .f32 :=
  Gat.tail (Gat.gatherRows (Host.dotGeneral Gat.dotN none X W) dst)
    (Gat.scoreRows (Host.dotGeneral Gat.dotN none X W) ka src dst) src

/-- That function of core `c`'s five argument arrays. -/
def value (c : Dev nD) : FVec Ideal Gat.SNxU .f32 :=
  valueOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- With the destination ids in range, the result buffer after the operations that follow the region is `value`. -/
theorem value_eq (c : Dev nD) (hr : Gat.InRange (m ((c.tc : Thread nD τ).loc main_arg4))) :
    (Pipeline.afterTail₀ cfgs (dats m) 0 (V0 m) tailOps c main_v43 : S100000x32.Idx → EReal) = value m c := by
  rw [result_eq]
  unfold value valueOf hArr lgArr
  rw [final3, final4, Gat.takeRows_eq _ _ hr, Gat.dot_eq_proj, Gat.scoreRows_eq]

/-- Every weakly fair execution terminates with the result buffer at `value`, the five arguments unchanged. -/
theorem run_value (hr : ∀ c : Dev nD, Gat.InRange (m ((c.tc : Thread nD τ).loc main_arg4))) :
    θ_run (defs (F := Ideal)) (onTc (τ := τ) (main (F := Ideal))) ⟨m, fun _ => 0, ρ⟩ (fun r => ∀ c : Dev nD,
      r.2.mem ((c.tc : Thread nD τ).loc main_v43) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h c).2 main_v43 (Pipeline.mem_restRefs_of main_v43 (by decide) (by decide))).trans (value_eq m c (hr c)),
        args_kept m r h c⟩)
    (run_main m ρ)

end Cert.KernelIdeal.Hand

end
-- ==== Proof.RefRun.lean ====
/-
  The reference program's run: a straight line of array operations, so every execution ends with each buffer at the
  composition of the operations that wrote it. Read at the result: the attention-weighted sum (`Gat.tail`) of the
  destination rows of `h = X · W`, scored by the 64-term inner product.
-/
import proofs.«416682_j4217657885155_2_alg».proof.ReferenceIdeal
import proofs.«416682_j4217657885155_2_alg».proof.Proof.Gen.ReferenceIdeal
import proofs.«416682_j4217657885155_2_alg».proof.Proof.Spec
import Idealize.ShloMosaic.Lib.StableHlo.Run
import Idealize.ShloMosaic.Adequacy
import Idealize.ShloMosaic.Init

noncomputable section

namespace Cert.ReferenceIdeal.Hand

open Idealize.ShloMosaic Idealize.ShloMosaic.TcCoe Idealize.SL.Sem Cert.ReferenceIdeal Cert.ReferenceIdeal.Gen

/-- The reference's result as a function of its five arguments. -/
def result (X : FVec Ideal Gat.SNxK .f32) (W : FVec Ideal Gat.SKxU .f32) (ka : FVec Ideal Gat.S64x1 .f32)
    (src dst : IVec Gat.SE 32) : FVec Ideal Gat.SNxU .f32 :=
  Gat.tail (Gat.gatherRows (Host.dotGeneral Gat.dotN none X W) dst)
    (Gat.scoreRows (Host.dotGeneral Gat.dotN none X W) ka src dst) src

section Line

open Idealize.ShloMosaic.StableHlo

variable {F : FTy → Type} [FloatOps F]

/-- The program's operations in order, the two outlined functions' bodies written out at their calls. -/
abbrev ops : List (HloOp τ sig (Elt F)) :=
  [ StableHlo.binary main_arg0 main_arg1 main_v0 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg3 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg3 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg3 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.binary main_v0 main_v6 main_v7 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_c_1 (constantI S_ 32 0#32),
    StableHlo.unary main_c_1 main_v8 (broadcastInDim S1600000 ![] bcast_S_S1600000 : (⟨S_, .i32⟩ : BufTy).Contents (Elt F) → (⟨S1600000, .i32⟩ : BufTy).Contents (Elt F)),
    StableHlo.binary main_arg4 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v10 (broadcastInDim S1600000 ![] bcast_S_S1600000 : (⟨S_, .i32⟩ : BufTy).Contents (Elt F) → (⟨S1600000, .i32⟩ : BufTy).Contents (Elt F)),
    StableHlo.binary main_arg4 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_arg4 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_v0 main_v13 main_v14 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.binary main_v7 main_v14 main_v15 ((fun a b => concatenate S1600000x64 1 [⟨S1600000x32, a⟩, ⟨S1600000x32, b⟩] concatenates_S1600000x32_S1600000x32_S1600000x64_d1) : (⟨S1600000x32, .f32⟩ : BufTy).Contents (Elt F) → (⟨S1600000x32, .f32⟩ : BufTy).Contents (Elt F) → (⟨S1600000x64, .f32⟩ : BufTy).Contents (Elt F)),
    StableHlo.binary main_v15 main_arg2 main_v16 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    StableHlo.reshape main_v16 main_v17 rfl shapeCasts_S1600000x1_S1600000,
    StableHlo.nullary main_cst (constant S_ .f32 0x3E4CCCCD#32),
    StableHlo.TRef.nullary main_call0.cst (constant S_ .f32 0x00000000#32),
    StableHlo.TRef.unary main_call0.cst main_call0.v0 (broadcastInDim S1600000 ![] bcast_S_S1600000),
    StableHlo.TRef.binary (.of main_v17) main_call0.v0 main_call0.v1 (cmpf .oge),
    StableHlo.TRef.unary (.of main_cst) main_call0.v2 id,
    StableHlo.TRef.unary main_call0.v2 main_call0.v3 (broadcastInDim S1600000 ![] bcast_S_S1600000),
    StableHlo.TRef.binary main_call0.v3 (.of main_v17) main_call0.v4 mulf,
    StableHlo.TRef.ternary main_call0.v1 (.of main_v17) main_call0.v4 main_call0.call0.v0 select,
    StableHlo.nullary main_cst_3 (constant S_ .f32 0xC0000000#32),
    StableHlo.nullary main_cst_4 (constant S_ .f32 0x40000000#32),
    StableHlo.TRef.unary (.of main_cst_3) main_call1.v0 id,
    StableHlo.TRef.unary main_call1.v0 main_call1.v1 (broadcastInDim S1600000 ![] bcast_S_S1600000),
    StableHlo.TRef.binary main_call1.v1 (.of main_v18) main_call1.v2 maximumf,
    StableHlo.TRef.unary (.of main_cst_4) main_call1.v3 id,
    StableHlo.TRef.unary main_call1.v3 main_call1.v4 (broadcastInDim S1600000 ![] bcast_S_S1600000),
    StableHlo.TRef.binary main_call1.v4 main_call1.v2 main_call1.v5 minimumf,
    StableHlo.unary main_v19 main_v20 (Host.exp : (⟨S1600000, .f32⟩ : BufTy).Contents (Elt F) → (⟨S1600000, .f32⟩ : BufTy).Contents (Elt F)),
    StableHlo.nullary main_cst_5 (constant S_ .f32 0x00000000#32),
    StableHlo.unary main_cst_5 main_v21 (broadcastInDim S100000 ![] bcast_S_S100000 : (⟨S_, .f32⟩ : BufTy).Contents (Elt F) → (⟨S100000, .f32⟩ : BufTy).Contents (Elt F)),
    StableHlo.unary main_arg3 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c_6 (constantI S_ 32 0#32),
    StableHlo.unary main_c_6 main_v24 (broadcastInDim S1600000 ![] bcast_S_S1600000 : (⟨S_, .i32⟩ : BufTy).Contents (Elt F) → (⟨S1600000, .i32⟩ : BufTy).Contents (Elt F)),
    StableHlo.binary main_arg3 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v26 (broadcastInDim S1600000 ![] bcast_S_S1600000 : (⟨S_, .i32⟩ : BufTy).Contents (Elt F) → (⟨S1600000, .i32⟩ : BufTy).Contents (Elt F)),
    StableHlo.binary main_arg3 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_arg3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v23 main_v29 main_v30 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v20 main_v30 main_v31 (Host.divf : (⟨S1600000, .f32⟩ : BufTy).Contents (Elt F) → (⟨S1600000, .f32⟩ : BufTy).Contents (Elt F) → (⟨S1600000, .f32⟩ : BufTy).Contents (Elt F)),
    StableHlo.nullary main_c_8 (constantI S_ 32 0#32),
    StableHlo.unary main_c_8 main_v32 (broadcastInDim S1600000 ![] bcast_S_S1600000 : (⟨S_, .i32⟩ : BufTy).Contents (Elt F) → (⟨S1600000, .i32⟩ : BufTy).Contents (Elt F)),
    StableHlo.binary main_arg4 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v34 (broadcastInDim S1600000 ![] bcast_S_S1600000 : (⟨S_, .i32⟩ : BufTy).Contents (Elt F) → (⟨S1600000, .i32⟩ : BufTy).Contents (Elt F)),
    StableHlo.binary main_arg4 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_arg4 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v0 main_v37 main_v38 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v31 main_v39 (broadcastInDim S1600000x1 ![0] bcast_S1600000_S1600000x1_0 : (⟨S1600000, .f32⟩ : BufTy).Contents (Elt F) → (⟨S1600000x1, .f32⟩ : BufTy).Contents (Elt F)),
    StableHlo.unary main_v39 main_v40 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v38 main_v40 main_v41 (mulf : (⟨S1600000x32, .f32⟩ : BufTy).Contents (Elt F) → (⟨S1600000x32, .f32⟩ : BufTy).Contents (Elt F) → (⟨S1600000x32, .f32⟩ : BufTy).Contents (Elt F)),
    StableHlo.nullary main_cst_10 (constant S_ .f32 0x00000000#32),
    StableHlo.unary main_cst_10 main_v42 (broadcastInDim S100000x32 ![] bcast_S_S100000x32 : (⟨S_, .f32⟩ : BufTy).Contents (Elt F) → (⟨S100000x32, .f32⟩ : BufTy).Contents (Elt F)),
    StableHlo.unary main_arg3 main_v43 (broadcastInDim S1600000x1 ![0] bcast_S1600000_S1600000x1_0 : (⟨S1600000, .i32⟩ : BufTy).Contents (Elt F) → (⟨S1600000x1, .i32⟩ : BufTy).Contents (Elt F)),
    StableHlo.ternary main_v42 main_v43 main_v41 main_v44 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)) ]

set_option maxRecDepth 2048 in
theorem main_eq (c : Dev nD) : main (F := F) c = seq ops := by
  simp only [main, fn_leaky_relu.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., reshape_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

end Line

section Read

open Idealize.ShloMosaic.StableHlo

-- the composed term is deep (the score occurs under both the numerator and the denominator of the attention)
set_option maxHeartbeats 4000000 in
/-- The contents after the whole line, read at the result buffer, are `result` of the starting contents of the five
    argument buffers: each operation's result buffer is rewritten to its function of its operands' contents, innermost
    last, and what is left is the definitions of `Gat` written out (the `convert`s of the outlined functions are the
    identity, as are the moves between a value's type and its buffer's). -/
theorem out_after (V : Valuation τ sig (Elt Ideal)) :
    after (ops (F := Ideal)) V (Proc.devRef .tc main_v44)
      = result (V (Proc.devRef .tc main_arg0)) (V (Proc.devRef .tc main_arg1)) (V (Proc.devRef .tc main_arg2))
          (V (Proc.devRef .tc main_arg3)) (V (Proc.devRef .tc main_arg4)) := by
  after_results_simp
  -- the concatenation's two operands sit in a list of shape-tagged pairs: they are read one operation at a time
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  unfold result Gat.tail Gat.attention Gat.denom Gat.weights Gat.clip2 Gat.leakyRelu Gat.scoreRows Gat.gatherRows Gat.colIdx Gat.wrapIdx
  rfl

/-- No operation of the line writes argument 0's buffer. -/
theorem arg0_after (V : Valuation τ sig (Elt Ideal)) :
    after (ops (F := Ideal)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

/-- No operation of the line writes argument 1's buffer. -/
theorem arg1_after (V : Valuation τ sig (Elt Ideal)) :
    after (ops (F := Ideal)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

/-- No operation of the line writes argument 2's buffer. -/
theorem arg2_after (V : Valuation τ sig (Elt Ideal)) :
    after (ops (F := Ideal)) V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

/-- No operation of the line writes argument 3's buffer. -/
theorem arg3_after (V : Valuation τ sig (Elt Ideal)) :
    after (ops (F := Ideal)) V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))

/-- No operation of the line writes argument 4's buffer. -/
theorem arg4_after (V : Valuation τ sig (Elt Ideal)) :
    after (ops (F := Ideal)) V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, ternary_writes, reshape_writes, Finset.mem_singleton]
    repeat' apply And.intro
    all_goals exact devRef_ne_of_ne (by decide)))

end Read

/-- Every weakly fair execution terminates with the result buffer at `result` of the arguments, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44)
          = result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨(h c main_v44).trans (out_after _), (h c main_arg0).trans (arg0_after _),
      (h c main_arg1).trans (arg1_after _), (h c main_arg2).trans (arg2_after _), (h c main_arg3).trans (arg3_after _),
      (h c main_arg4).trans (arg4_after _)⟩)
    (StableHlo.run_seq scopedRefs_eq scopedSems_eq defs main (fun _ => ops) main_eq (fun _ => ops_sub) m ρ)

end Cert.ReferenceIdeal.Hand

end
-- ==== Proof.lean ====
/-
  Graph attention on an edge list: a tiled program against a plain one, equal over the extended reals.

  Both compute, for every source node, the attention-weighted sum of the projected rows `h = X · W` of its neighbours. They
  differ in three places. The tiled program forms `h` and the per-node logits block by block over the node axis, 5000 rows
  at a time; at the extended reals a block's product is the whole product's rows, whatever the tiling. It scores an edge
  by two gathered scalars `a₀ (src) + a₁ (dst)` where the plain one takes the 64-term inner product of the two gathered
  rows with the attention vector: a sum over 64 terms split at 32, which holds at the infinities too since it uses only
  that addition is commutative and associative. And it looks the destination rows up with a fill for an id outside
  `[0, N)` where the plain one clamps: equal exactly where every destination id is a row number, which is the
  precondition's last conjunct (without it the two differ: a filled row reads as the bottom element, a clamped row does not).
  Everything after the score is the same function of the same operands on both sides and is never opened.

  The frames: the tiled program's is proved once for any float instance from the library's frame run of a region followed
  by array operations, the body run symbolically at a generic grid point; the plain program is a straight line of array
  operations. No rewrite was made when the program was idealized, so the fourth conjunct is trivial.
-/
import proofs.«416682_j4217657885155_2_alg».proof.Defs
import proofs.«416682_j4217657885155_2_alg».proof.Proof.Gen.Kernel
import proofs.«416682_j4217657885155_2_alg».proof.Proof.Gen.KernelIdeal
import proofs.«416682_j4217657885155_2_alg».proof.Proof.Gen.ReferenceIdeal
import proofs.«416682_j4217657885155_2_alg».proof.Proof.Gen.Pre_finite_inputs
import proofs.«416682_j4217657885155_2_alg».proof.Proof.KFrame
import proofs.«416682_j4217657885155_2_alg».proof.Proof.KIFrame
import proofs.«416682_j4217657885155_2_alg».proof.Proof.KIRun
import proofs.«416682_j4217657885155_2_alg».proof.Proof.RefRun
import proofs.«416682_j4217657885155_2_alg».proof.Proof.Take
import Idealize.ShloMosaic.Adequacy
import Idealize.ShloMosaic.Init

noncomputable section

namespace Cert.Proof

open Idealize.ShloMosaic Idealize.ShloMosaic.TcCoe Idealize.SL.Sem

/-- The word-level tiled program runs and keeps its arguments. -/
theorem frame_kernel : Cert.frame_Kernel := fun m ρ _ => Cert.Kernel.Hand.frame m ρ

/-- So does its reading over the extended reals. -/
theorem frame_kernelIdeal : Cert.frame_KernelIdeal := fun m ρ _ => Cert.KernelIdeal.Hand.frame m ρ

/-- The plain program runs and keeps its arguments: its run with the result forgotten. -/
theorem frame_referenceIdeal : Cert.frame_ReferenceIdeal := fun m ρ _ =>
  (θ_run Cert.ReferenceIdeal.defs _ _).mono (fun _ h c => (h c).2) (Cert.ReferenceIdeal.Hand.run_value m ρ)

/-- From memories that agree on the five arguments, the destination ids in range, the two programs end with the same
    result: the plain program's function of the arguments. -/
theorem algebraic : Cert.algebraic_KernelIdeal_ReferenceIdeal := by
  intro m ρ m' ρ' hpre hagree
  refine ⟨fun c => Cert.KernelIdeal.Hand.value m c, ?_, ?_⟩
  · exact Cert.KernelIdeal.Hand.run_value m ρ (fun c => Cert.Gat.inRange_of_pre _ _ _ _ _ (hpre c))
  · refine (θ_run Cert.ReferenceIdeal.defs _ _).mono (fun r h c => ⟨?_, (h c).2⟩) (Cert.ReferenceIdeal.Hand.run_value m' ρ')
    rw [(h c).1, (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
